-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1x20000 : Shape := ⟨3, ![4096, 1, 20000]⟩
abbrev S128x40000 : Shape := ⟨2, ![128, 40000]⟩
abbrev S128 : Shape := ⟨1, ![128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S_ : Shape := ⟨0, ![]⟩

class Facts : Prop where
  bcast_S_S4096x1x20000 : S_.BroadcastsInDim S4096x1x20000 (![] : Fin 0 → Fin S4096x1x20000.rank)
  reducesTo_S4096x1x20000_S_d0_1_2 : S4096x1x20000.ReducesTo [0, 1, 2] S_
  h_S_ : 0 < S_.numel
  bcast_S_S128x40000 : S_.BroadcastsInDim S128x40000 (![] : Fin 0 → Fin S128x40000.rank)
  reducesTo_S128x40000_S_d0_1 : S128x40000.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S32 .f32) (main_arg8 : FVec F S16x32 .f32) (main_arg9 : FVec F S16 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S16x32 .f32 := Host.absf main_arg8
  let main_cst_14 : FVec F S_ .f32 := constant S_ .f32 0x7F800000#32
  let main_v40 : FVec F S16x32 .f32 := broadcastInDim S16x32 ![] bcast_S_S16x32 main_cst_14
  let main_v41 : IVec S16x32 1 := cmpf .olt main_v39 main_v40
  let main_c_15 : IVec S_ 1 := constantI S_ 1 1#1
  let main_v42 : IVec S_ 1 := (fun x v => Host.reduce IntOp.andi x v reducesTo_S16x32_S_d0_1 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg4 : FVec F S64x128 .f32) (main_arg5 : FVec F S64 .f32) (main_arg6 : FVec F S32x64 .f32) (main_arg7 : FVec F S32 .f32) (main_arg8 : FVec F S16x32 .f32) (main_arg9 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S32x64 .f32 := Host.absf main_arg6
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x1x20000 .f32) (main_arg1 : FVec F S4096x1x20000 .f32) (main_arg2 : FVec F S128x40000 .f32) (main_arg3 : FVec F S128 .f32) (main_arg4 : FVec F S64x128 .f32) (main_arg5 : FVec F S64 .f32) (main_arg6 : FVec F S32x64 .f32) (main_arg7 : FVec F S32 .f32) (main_arg8 : FVec F S16x32 .f32) (main_arg9 : FVec F S16 .f32) : IVec S_ 1 :=
  let main_v0 : FVec F S4096x1x20000 .f32 := Host.absf main_arg0
  let main_cst : FVec F S_ .f32 := constant S_ .f32 0x7F800000#32
  let main_v1 : FVec F S4096x1x20000 .f32 := broadcastInDim S4096x1x20000 ![] bcast_S_S4096x1x20000 main_cst
  let main_v2 : IVec S4096x1x20000 1 := cmpf .olt main_v0 main_v1
  let main_c : IVec S_ 1 := constantI S_ 1 1#1
  let main_v3 : IVec S_ 1 := (fun x v => Host.reduce IntOp.andi x v reducesTo_S4096x1x20000_S_d0_1_2 h_S_) main_v2 main_c
  let main_v4 : FVec F S4096x1x20000 .f32 := Host.absf main_arg1
  let main_cst_0 : FVec F S_ .f32 := constant S_ .f32 0x7F800000#32
  let main_v5 : FVec F S4096x1x20000 .f32 := broadcastInDim S4096x1x20000 ![] bcast_S_S4096x1x20000 main_cst_0
  let main_v6 : IVec S4096x1x20000 1 := cmpf .olt main_v4 main_v5
  let main_c_1 : IVec S_ 1 := constantI S_ 1 1#1
  let main_v7 : IVec S_ 1 := (fun x v => Host.reduce IntOp.andi x v reducesTo_S4096x1x20000_S_d0_1_2 h_S_) main_v6 main_c_1
  let main_v8 : IVec S_ 1 := andi main_v3 main_v7
  let main_v9 : FVec F S128x40000 .f32 := Host.absf main_arg2
  let main_cst_2 : FVec F S_ .f32 := constant S_ .f32 0x7F800000#32
  let main_v10 : FVec F S128x40000 .f32 := broadcastInDim S128x40000 ![] bcast_S_S128x40000 main_cst_2
  let main_v11 : IVec S128x40000 1 := cmpf .olt main_v9 main_v10
  let main_c_3 : IVec S_ 1 := constantI S_ 1 1#1
  let main_v12 : IVec S_ 1 := (fun x v => Host.reduce IntOp.andi x v reducesTo_S128x40000_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S4096x1x20000 : Shape := ⟨3, ![4096, 1, 20000]⟩
abbrev S128x40000 : Shape := ⟨2, ![128, 40000]⟩
abbrev S128 : Shape := ⟨1, ![128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S4096x20000 : Shape := ⟨2, ![4096, 20000]⟩
abbrev S128x20000 : Shape := ⟨2, ![128, 20000]⟩
abbrev S1x128 : Shape := ⟨2, ![1, 128]⟩
abbrev S1x64 : Shape := ⟨2, ![1, 64]⟩
abbrev S1x32 : Shape := ⟨2, ![1, 32]⟩
abbrev S1x16 : Shape := ⟨2, ![1, 16]⟩
abbrev S4096x16 : Shape := ⟨2, ![4096, 16]⟩
abbrev S64x20000 : Shape := ⟨2, ![64, 20000]⟩
abbrev S64x16 : Shape := ⟨2, ![64, 16]⟩
abbrev S64x1 : Shape := ⟨2, ![64, 1]⟩
abbrev S64x64 : Shape := ⟨2, ![64, 64]⟩
abbrev S64x32 : Shape := ⟨2, ![64, 32]⟩
abbrev S4096x1x16 : Shape := ⟨3, ![4096, 1, 16]⟩

abbrev nBuf : Space → Nat
  | .hbm => 25
  | .vmem => 15
  | .smem => 0
  | _ => 0

abbrev bufTy : (tb : Table) → Fin (tcTables nBuf tb) → BufTy
  | .hbm, ⟨0, _⟩ => ⟨S4096x1x20000, .f32⟩
  | .hbm, ⟨1, _⟩ => ⟨S4096x1x20000, .f32⟩
  | .hbm, ⟨2, _⟩ => ⟨S128x40000, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S32x64, .f32⟩
  | .hbm, ⟨7, _⟩ => ⟨S32, .f32⟩
  | .hbm, ⟨8, _⟩ => ⟨S16x32, .f32⟩
  | .hbm, ⟨9, _⟩ => ⟨S16, .f32⟩
  | .hbm, ⟨10, _⟩ => ⟨S4096x20000, .f32⟩
  | .hbm, ⟨11, _⟩ => ⟨S4096x20000, .f32⟩
  | .hbm, ⟨12, _⟩ => ⟨S128x20000, .f32⟩
  | .hbm, ⟨13, _⟩ => ⟨S128x20000, .bf16⟩
  | .hbm, ⟨14, _⟩ => ⟨S128x20000, .f32⟩
  | .hbm, ⟨15, _⟩ => ⟨S128x20000, .bf16⟩
  | .hbm, ⟨16, _⟩ => ⟨S64x128, .bf16⟩
  | .hbm, ⟨17, _⟩ => ⟨S32x64, .bf16⟩
  | .hbm, ⟨18, _⟩ => ⟨S16x32, .bf16⟩
  | .hbm, ⟨19, _⟩ => ⟨S1x128, .f32⟩
  | .hbm, ⟨20, _⟩ => ⟨S1x64, .f32⟩
  | .hbm, ⟨21, _⟩ => ⟨S1x32, .f32⟩
  | .hbm, ⟨22, _⟩ => ⟨S1x16, .f32⟩
  | .hbm, ⟨23, _⟩ => ⟨S4096x16, .f32⟩
  | .hbm, ⟨24, _⟩ => ⟨S4096x1x16, .f32⟩
  | .local _ .vmem, ⟨0, _⟩ => ⟨S64x20000, .f32⟩
  | .local _ .vmem, ⟨1, _⟩ => ⟨S64x20000, .f32⟩
  | .local _ .vmem, ⟨2, _⟩ => ⟨S64x20000, .f32⟩
  | .local _ .vmem, ⟨3, _⟩ => ⟨S64x20000, .f32⟩
  | .local _ .vmem, ⟨4, _⟩ => ⟨S128x20000, .bf16⟩
  | .local _ .vmem, ⟨5, _⟩ => ⟨S128x20000, .bf16⟩
  | .local _ .vmem, ⟨6, _⟩ => ⟨S1x128, .f32⟩
  | .local _ .vmem, ⟨7, _⟩ => ⟨S64x128, .bf16⟩
  | .local _ .vmem, ⟨8, _⟩ => ⟨S1x64, .f32⟩
  | .local _ .vmem, ⟨9, _⟩ => ⟨S32x64, .bf16⟩
  | .local _ .vmem, ⟨10, _⟩ => ⟨S1x32, .f32⟩
  | .local _ .vmem, ⟨11, _⟩ => ⟨S16x32, .bf16⟩
  | .local _ .vmem, ⟨12, _⟩ => ⟨S1x16, .f32⟩
  | .local _ .vmem, ⟨13, _⟩ => ⟨S64x16, .f32⟩
  | .local _ .vmem, ⟨14, _⟩ => ⟨S64x16, .f32⟩
  | _, _ => ⟨S4096x1x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x20000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x20000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x20000 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x20000 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x32 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S64x16 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S4096x1x20000_S4096x20000 : S4096x1x20000.ShapeCasts S4096x20000
  slices_S128x40000_S128x20000_0_0 : S128x40000.Slices ![0, 0] S128x20000
  bitsLt_bf16_f32 : FTy.bits .bf16 < FTy.bits .f32
  slices_S128x40000_S128x20000_0_20000 : S128x40000.Slices ![0, 20000] S128x20000
  shapeCasts_S128_S1x128 : S128.ShapeCasts S1x128
  shapeCasts_S64_S1x64 : S64.ShapeCasts S1x64
  shapeCasts_S32_S1x32 : S32.ShapeCasts S1x32
  shapeCasts_S16_S1x16 : S16.ShapeCasts S1x16
  inb_S64x20000_S64x20000_0_0 : ∀ a, (![0, 0] : Fin 2 → Nat) a + S64x20000.size a ≤ S64x20000.size a
  h_S64x20000 : 0 < S64x20000.numel
  shapeCasts_S64x20000_S64x20000 : S64x20000.ShapeCasts S64x20000
  inb_S128x20000_S128x20000_0_0 : ∀ a, (![0, 0] : Fin 2 → Nat) a + S128x20000.size a ≤ S128x20000.size a
  h_S128x20000 : 0 < S128x20000.numel
  shapeCasts_S128x20000_S128x20000 : S128x20000.ShapeCasts S128x20000
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  reduces_S64x128_S64 : S64x128.Reduces [1] S64
  shapeCasts_S64_S64x1 : S64.ShapeCasts S64x1
  broadcasts_S64x1_S64x128 : S64x1.Broadcasts S64x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S64x64 : S1x64.Broadcasts S64x64
  reduces_S64x64_S64 : S64x64.Reduces [1] S64
  broadcasts_S64x1_S64x64 : S64x1.Broadcasts S64x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  reduces_S64x32_S64 : S64x32.Reduces [1] S64
  broadcasts_S64x1_S64x32 : S64x1.Broadcasts S64x32
  inb_S16x32_S16x32_0_0 : ∀ a, (![0, 0] : Fin 2 → Nat) a + S16x32.size a ≤ S16x32.size a
  h_S16x32 : 0 < S16x32.numel
  shapeCasts_S16x32_S16x32 : S16x32.ShapeCasts S16x32
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S64x16 : S1x16.Broadcasts S64x16
  inb_S64x16_S64x16_0_0 : ∀ a, (![0, 0] : Fin 2 → Nat) a + S64x16.size a ≤ S64x16.size a
  h_S64x16 : 0 < S64x16.numel
  shapeCasts_S4096x16_S4096x1x16 : S4096x16.ShapeCasts S4096x1x16
  dot_S64x20000_S128x20000_S64x128_1_1_0_0_n_n_wf : DotDims.WF S64x20000 S128x20000 S64x128 [1] [1] [0] [0] [] []
  dot_S64x128_S64x128_S64x64_1_1_0_0_n_n_wf : DotDims.WF S64x128 S64x128 S64x64 [1] [1] [0] [0] [] []
  dot_S64x64_S32x64_S64x32_1_1_0_0_n_n_wf : DotDims.WF S64x64 S32x64 S64x32 [1] [1] [0] [0] [] []
  dot_S64x32_S16x32_S64x16_1_1_0_0_n_n_wf : DotDims.WF S64x32 S16x32 S64x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x20000.size a ≤ S4096x20000.size a
  hwx0_0 : ∀ i : grid0.Coords, EltTy.bits .f32 = 32 ∨ (Rect.block (s := S4096x20000) S64x20000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x20000.size a ≤ S4096x20000.size a
  hwx0_1 : ∀ i : grid0.Coords, EltTy.bits .f32 = 32 ∨ (Rect.block (s := S4096x20000) S64x20000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x20000.size a ≤ S128x20000.size a
  hwx0_2 : ∀ i : grid0.Coords, EltTy.bits .bf16 = 32 ∨ (Rect.block (s := S128x20000) S128x20000.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x20000.size a ≤ S128x20000.size a
  hwx0_3 : ∀ i : grid0.Coords, EltTy.bits .bf16 = 32 ∨ (Rect.block (s := S128x20000) S128x20000.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .bf16 = 32 ∨ (Rect.block (s := S64x128) S64x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x64.size a ≤ S32x64.size a
  hwx0_7 : ∀ i : grid0.Coords, EltTy.bits .bf16 = 32 ∨ (Rect.block (s := S32x64) S32x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x32.size a ≤ S16x32.size a
  hwx0_9 : ∀ i : grid0.Coords, EltTy.bits .bf16 = 32 ∨ (Rect.block (s := S16x32) S16x32.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x16.size a ≤ S1x16.size a
  hwx0_10 : ∀ i : grid0.Coords, EltTy.bits .f32 = 32 ∨ (Rect.block (s := S1x16) S1x16.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S64x16.size a ≤ S4096x16.size a
  hwx0_11 : ∀ i : grid0.Coords, EltTy.bits .f32 = 32 ∨ (Rect.block (s := S4096x16) S64x16.size (cc0_transform_11 i) (hinb0_11 i)).WholeWords (EltTy.packing .f32)

variable [Facts₀]

def dot_S64x20000_S128x20000_S64x128_1_1_0_0_n_n : DotDims S64x20000 S128x20000 S64x128 where
  lhsContracting := [1]
  rhsContracting := [1]
  lhsNonContracting := [0]
  rhsNonContracting := [0]
  lhsBatch := []
  rhsBatch := []
  wf := dot_S64x20000_S128x20000_S64x128_1_1_0_0_n_n_wf
def dot_S64x128_S64x128_S64x64_1_1_0_0_n_n : DotDims S64x128 S64x128 S64x64 where
  lhsContracting := [1]
  rhsContracting := [1]
  lhsNonContracting := [0]
  rhsNonContracting := [0]
  lhsBatch := []
  rhsBatch := []
  wf := dot_S64x128_S64x128_S64x64_1_1_0_0_n_n_wf
def dot_S64x64_S32x64_S64x32_1_1_0_0_n_n : DotDims S64x64 S32x64 S64x32 where
  lhsContracting := [1]
  rhsContracting := [1]
  lhsNonContracting := [0]
  rhsNonContracting := [0]
  lhsBatch := []
  rhsBatch := []
  wf := dot_S64x64_S32x64_S64x32_1_1_0_0_n_n_wf
def dot_S64x32_S16x32_S64x16_1_1_0_0_n_n : DotDims S64x32 S16x32 S64x16 where
  lhsContracting := [1]
  rhsContracting := [1]
  lhsNonContracting := [0]
  rhsNonContracting := [0]
  lhsBatch := []
  rhsBatch := []
  wf := dot_S64x32_S16x32_S64x16_1_1_0_0_n_n_wf

abbrev win0_0 : Pipeline.Window sig grid0 :=
  Pipeline.Window.ofSpec (Memref.whole main_v0) S64x20000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x20000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x20000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x20000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S32x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8) S16x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12) S1x16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S64x16.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x1x20000 : Shape := ⟨3, ![4096, 1, 20000]⟩
abbrev S128x40000 : Shape := ⟨2, ![128, 40000]⟩
abbrev S128 : Shape := ⟨1, ![128]⟩
abbrev S64x128 : Shape := ⟨2, ![64, 128]⟩
abbrev S64 : Shape := ⟨1, ![64]⟩
abbrev S32x64 : Shape := ⟨2, ![32, 64]⟩
abbrev S32 : Shape := ⟨1, ![32]⟩
abbrev S16x32 : Shape := ⟨2, ![16, 32]⟩
abbrev S16 : Shape := ⟨1, ![16]⟩
abbrev S4096x1x40000 : Shape := ⟨3, ![4096, 1, 40000]⟩
abbrev S4096x1x128 : Shape := ⟨3, ![4096, 1, 128]⟩
abbrev S1x1x128 : Shape := ⟨3, ![1, 1, 128]⟩
abbrev S_ : Shape := ⟨0, ![]⟩
abbrev S4096x1 : Shape := ⟨2, ![4096, 1]⟩
abbrev S4096x1x1 : Shape := ⟨3, ![4096, 1, 1]⟩
abbrev S4096x1x64 : Shape := ⟨3, ![4096, 1, 64]⟩
abbrev S1x1x64 : Shape := ⟨3, ![1, 1, 64]⟩
abbrev S4096x1x32 : Shape := ⟨3, ![4096, 1, 32]⟩
abbrev S1x1x32 : Shape := ⟨3, ![1, 1, 32]⟩
abbrev S4096x1x16 : Shape := ⟨3, ![4096, 1, 16]⟩
abbrev S1x1x16 : Shape := ⟨3, ![1, 1, 16]⟩

abbrev nBuf : Space → Nat
  | .hbm => 117
  | .vmem => 0
  | .smem => 0
  | _ => 0

abbrev bufTy : (tb : Table) → Fin (tcTables nBuf tb) → BufTy
  | .hbm, ⟨0, _⟩ => ⟨S4096x1x20000, .f32⟩
  | .hbm, ⟨1, _⟩ => ⟨S4096x1x20000, .f32⟩
  | .hbm, ⟨2, _⟩ => ⟨S128x40000, .f32⟩
  | .hbm, ⟨3, _⟩ => ⟨S128, .f32⟩
  | .hbm, ⟨4, _⟩ => ⟨S64x128, .f32⟩
  | .hbm, ⟨5, _⟩ => ⟨S64, .f32⟩
  | .hbm, ⟨6, _⟩ => ⟨S32x64, .f32⟩
  | .hbm, ⟨7, _⟩ => ⟨S32, .f32⟩
  | .hbm, ⟨8, _⟩ => ⟨S16x32, .f32⟩
  | .hbm, ⟨9, _⟩ => ⟨S16, .f32⟩
  | .hbm, ⟨10, _⟩ => ⟨S4096x1x40000, .f32⟩
  | .hbm, ⟨11, _⟩ => ⟨S4096x1x128, .f32⟩
  | .hbm, ⟨12, _⟩ => ⟨S1x1x128, .f32⟩
  | .hbm, ⟨13, _⟩ => ⟨S4096x1x128, .f32⟩
  | .hbm, ⟨14, _⟩ => ⟨S4096x1x128, .f32⟩
  | .hbm, ⟨15, _⟩ => ⟨S_, .f32⟩
  | .hbm, ⟨16, _⟩ => ⟨S4096x1, .f32⟩
  | .hbm, ⟨17, _⟩ => ⟨S4096x1x1, .f32⟩
  | .hbm, ⟨18, _⟩ => ⟨S_, .f32⟩
  | .hbm, ⟨19, _⟩ => ⟨S4096x1x1, .f32⟩
  | .hbm, ⟨20, _⟩ => ⟨S4096x1x1, .f32⟩
  | .hbm, ⟨21, _⟩ => ⟨S4096x1x128, .f32⟩
  | .hbm, ⟨22, _⟩ => ⟨S4096x1x128, .f32⟩
  | .hbm, ⟨23, _⟩ => ⟨S4096x1x128, .f32⟩
  | .hbm, ⟨24, _⟩ => ⟨S_, .f32⟩
  | .hbm, ⟨25, _⟩ => ⟨S4096x1, .f32⟩
  | .hbm, ⟨26, _⟩ => ⟨S4096x1x1, .f32⟩
  | .hbm, ⟨27, _⟩ => ⟨S_, .f32⟩
  | .hbm, ⟨28, _⟩ => ⟨S4096x1x1, .f32⟩
  | .hbm, ⟨29, _⟩ => ⟨S4096x1x1, .f32⟩
  | .hbm, ⟨30, _⟩ => ⟨S4096x1x128, .f32⟩
  | .hbm, ⟨31, _⟩ => ⟨S4096x1x128, .f32⟩
  | .hbm, ⟨32, _⟩ => ⟨S_, .f32⟩
  | .hbm, ⟨33, _⟩ => ⟨S4096x1x1, .f32⟩
  | .hbm, ⟨34, _⟩ => ⟨S4096x1x1, .f32⟩
  | .hbm, ⟨35, _⟩ => ⟨S4096x1x1, .f32⟩
  | .hbm, ⟨36, _⟩ => ⟨S4096x1x128, .f32⟩
  | .hbm, ⟨37, _⟩ => ⟨S4096x1x128, .f32⟩
  | .hbm, ⟨38, _⟩ => ⟨S_, .f32⟩
  | .hbm, ⟨39, _⟩ => ⟨S4096x1x128, .f32⟩
  | .hbm, ⟨40, _⟩ => ⟨S4096x1x128, .i1⟩
  | .hbm, ⟨41, _⟩ => ⟨S_, .f32⟩
  | .hbm, ⟨42, _⟩ => ⟨S4096x1x128, .f32⟩
  | .hbm, ⟨43, _⟩ => ⟨S4096x1x128, .f32⟩
  | .hbm, ⟨44, _⟩ => ⟨S4096x1x128, .f32⟩
  | .hbm, ⟨45, _⟩ => ⟨S4096x1x64, .f32⟩
  | .hbm, ⟨46, _⟩ => ⟨S1x1x64, .f32⟩
  | .hbm, ⟨47, _⟩ => ⟨S4096x1x64, .f32⟩
  | .hbm, ⟨48, _⟩ => ⟨S4096x1x64, .f32⟩
  | .hbm, ⟨49, _⟩ => ⟨S_, .f32⟩
  | .hbm, ⟨50, _⟩ => ⟨S4096x1, .f32⟩
  | .hbm, ⟨51, _⟩ => ⟨S4096x1x1, .f32⟩
  | .hbm, ⟨52, _⟩ => ⟨S_, .f32⟩
  | .hbm, ⟨53, _⟩ => ⟨S4096x1x1, .f32⟩
  | .hbm, ⟨54, _⟩ => ⟨S4096x1x1, .f32⟩
  | .hbm, ⟨55, _⟩ => ⟨S4096x1x64, .f32⟩
  | .hbm, ⟨56, _⟩ => ⟨S4096x1x64, .f32⟩
  | .hbm, ⟨57, _⟩ => ⟨S4096x1x64, .f32⟩
  | .hbm, ⟨58, _⟩ => ⟨S_, .f32⟩
  | .hbm, ⟨59, _⟩ => ⟨S4096x1, .f32⟩
  | .hbm, ⟨60, _⟩ => ⟨S4096x1x1, .f32⟩
  | .hbm, ⟨61, _⟩ => ⟨S_, .f32⟩
  | .hbm, ⟨62, _⟩ => ⟨S4096x1x1, .f32⟩
  | .hbm, ⟨63, _⟩ => ⟨S4096x1x1, .f32⟩
  | .hbm, ⟨64, _⟩ => ⟨S4096x1x64, .f32⟩
  | .hbm, ⟨65, _⟩ => ⟨S4096x1x64, .f32⟩
  | .hbm, ⟨66, _⟩ => ⟨S_, .f32⟩
  | .hbm, ⟨67, _⟩ => ⟨S4096x1x1, .f32⟩
  | .hbm, ⟨68, _⟩ => ⟨S4096x1x1, .f32⟩
  | .hbm, ⟨69, _⟩ => ⟨S4096x1x1, .f32⟩
  | .hbm, ⟨70, _⟩ => ⟨S4096x1x64, .f32⟩
  | .hbm, ⟨71, _⟩ => ⟨S4096x1x64, .f32⟩
  | .hbm, ⟨72, _⟩ => ⟨S_, .f32⟩
  | .hbm, ⟨73, _⟩ => ⟨S4096x1x64, .f32⟩
  | .hbm, ⟨74, _⟩ => ⟨S4096x1x64, .i1⟩
  | .hbm, ⟨75, _⟩ => ⟨S_, .f32⟩
  | .hbm, ⟨76, _⟩ => ⟨S4096x1x64, .f32⟩
  | .hbm, ⟨77, _⟩ => ⟨S4096x1x64, .f32⟩
  | .hbm, ⟨78, _⟩ => ⟨S4096x1x64, .f32⟩
  | .hbm, ⟨79, _⟩ => ⟨S4096x1x32, .f32⟩
  | .hbm, ⟨80, _⟩ => ⟨S1x1x32, .f32⟩
  | .hbm, ⟨81, _⟩ => ⟨S4096x1x32, .f32⟩
  | .hbm, ⟨82, _⟩ => ⟨S4096x1x32, .f32⟩
  | .hbm, ⟨83, _⟩ => ⟨S_, .f32⟩
  | .hbm, ⟨84, _⟩ => ⟨S4096x1, .f32⟩
  | .hbm, ⟨85, _⟩ => ⟨S4096x1x1, .f32⟩
  | .hbm, ⟨86, _⟩ => ⟨S_, .f32⟩
  | .hbm, ⟨87, _⟩ => ⟨S4096x1x1, .f32⟩
  | .hbm, ⟨88, _⟩ => ⟨S4096x1x1, .f32⟩
  | .hbm, ⟨89, _⟩ => ⟨S4096x1x32, .f32⟩
  | .hbm, ⟨90, _⟩ => ⟨S4096x1x32, .f32⟩
  | .hbm, ⟨91, _⟩ => ⟨S4096x1x32, .f32⟩
  | .hbm, ⟨92, _⟩ => ⟨S_, .f32⟩
  | .hbm, ⟨93, _⟩ => ⟨S4096x1, .f32⟩
  | .hbm, ⟨94, _⟩ => ⟨S4096x1x1, .f32⟩
  | .hbm, ⟨95, _⟩ => ⟨S_, .f32⟩
  | .hbm, ⟨96, _⟩ => ⟨S4096x1x1, .f32⟩
  | .hbm, ⟨97, _⟩ => ⟨S4096x1x1, .f32⟩
  | .hbm, ⟨98, _⟩ => ⟨S4096x1x32, .f32⟩
  | .hbm, ⟨99, _⟩ => ⟨S4096x1x32, .f32⟩
  | .hbm, ⟨100, _⟩ => ⟨S_, .f32⟩
  | .hbm, ⟨101, _⟩ => ⟨S4096x1x1, .f32⟩
  | .hbm, ⟨102, _⟩ => ⟨S4096x1x1, .f32⟩
  | .hbm, ⟨103, _⟩ => ⟨S4096x1x1, .f32⟩
  | .hbm, ⟨104, _⟩ => ⟨S4096x1x32, .f32⟩
  | .hbm, ⟨105, _⟩ => ⟨S4096x1x32, .f32⟩
  | .hbm, ⟨106, _⟩ => ⟨S_, .f32⟩
  | .hbm, ⟨107, _⟩ => ⟨S4096x1x32, .f32⟩
  | .hbm, ⟨108, _⟩ => ⟨S4096x1x32, .i1⟩
  | .hbm, ⟨109, _⟩ => ⟨S_, .f32⟩
  | .hbm, ⟨110, _⟩ => ⟨S4096x1x32, .f32⟩
  | .hbm, ⟨111, _⟩ => ⟨S4096x1x32, .f32⟩
  | .hbm, ⟨112, _⟩ => ⟨S4096x1x32, .f32⟩
  | .hbm, ⟨113, _⟩ => ⟨S4096x1x16, .f32⟩
  | .hbm, ⟨114, _⟩ => ⟨S1x1x16, .f32⟩
  | .hbm, ⟨115, _⟩ => ⟨S4096x1x16, .f32⟩
  | .hbm, ⟨116, _⟩ => ⟨S4096x1x16, .f32⟩
  | _, _ => ⟨S4096x1x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_cst_12 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_13 : Ref sig .tc := ⟨.hbm, 83, rfl⟩
abbrev main_v59 : Ref sig .tc := ⟨.hbm, 84, rfl⟩
abbrev main_v60 : Ref sig .tc := ⟨.hbm, 85, rfl⟩
abbrev main_cst_14 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_15 : Ref sig .tc := ⟨.hbm, 92, rfl⟩
abbrev main_v66 : Ref sig .tc := ⟨.hbm, 93, rfl⟩
abbrev main_v67 : Ref sig .tc := ⟨.hbm, 94, rfl⟩
abbrev main_cst_16 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_17 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_18 : Ref sig .tc := ⟨.hbm, 106, rfl⟩
abbrev main_v77 : Ref sig .tc := ⟨.hbm, 107, rfl⟩
abbrev main_v78 : Ref sig .tc := ⟨.hbm, 108, rfl⟩
abbrev main_cst_19 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩

abbrev nD : Nat := 1
abbrev τ : Topo := Topo.v7x

variable {F : FTy → Type} [FloatOps F]

class Facts₀ : Prop where
  concatenates_S4096x1x20000_S4096x1x20000_S4096x1x40000_d2 : Shape.Concatenates [S4096x1x20000, S4096x1x20000] S4096x1x40000 2
  bcast_S128_S1x1x128_2 : S128.BroadcastsInDim S1x1x128 (![2] : Fin 1 → Fin S1x1x128.rank)
  bcast_S1x1x128_S4096x1x128_0_1_2 : S1x1x128.BroadcastsInDim S4096x1x128 (![0, 1, 2] : Fin 3 → Fin S4096x1x128.rank)
  reducesTo_S4096x1x128_S4096x1_d2 : S4096x1x128.ReducesTo [2] S4096x1
  h_S_ : 0 < S_.numel
  bcast_S4096x1_S4096x1x1_0_1 : S4096x1.BroadcastsInDim S4096x1x1 (![0, 1] : Fin 2 → Fin S4096x1x1.rank)
  bcast_S_S4096x1x1 : S_.BroadcastsInDim S4096x1x1 (![] : Fin 0 → Fin S4096x1x1.rank)
  bcast_S4096x1x1_S4096x1x128_0_1_2 : S4096x1x1.BroadcastsInDim S4096x1x128 (![0, 1, 2] : Fin 3 → Fin S4096x1x128.rank)
  bcast_S_S4096x1x128 : S_.BroadcastsInDim S4096x1x128 (![] : Fin 0 → Fin S4096x1x128.rank)
  bcast_S64_S1x1x64_2 : S64.BroadcastsInDim S1x1x64 (![2] : Fin 1 → Fin S1x1x64.rank)
  bcast_S1x1x64_S4096x1x64_0_1_2 : S1x1x64.BroadcastsInDim S4096x1x64 (![0, 1, 2] : Fin 3 → Fin S4096x1x64.rank)
  reducesTo_S4096x1x64_S4096x1_d2 : S4096x1x64.ReducesTo [2] S4096x1
  bcast_S4096x1x1_S4096x1x64_0_1_2 : S4096x1x1.BroadcastsInDim S4096x1x64 (![0, 1, 2] : Fin 3 → Fin S4096x1x64.rank)
  bcast_S_S4096x1x64 : S_.BroadcastsInDim S4096x1x64 (![] : Fin 0 → Fin S4096x1x64.rank)
  bcast_S32_S1x1x32_2 : S32.BroadcastsInDim S1x1x32 (![2] : Fin 1 → Fin S1x1x32.rank)
  bcast_S1x1x32_S4096x1x32_0_1_2 : S1x1x32.BroadcastsInDim S4096x1x32 (![0, 1, 2] : Fin 3 → Fin S4096x1x32.rank)
  reducesTo_S4096x1x32_S4096x1_d2 : S4096x1x32.ReducesTo [2] S4096x1
  bcast_S4096x1x1_S4096x1x32_0_1_2 : S4096x1x1.BroadcastsInDim S4096x1x32 (![0, 1, 2] : Fin 3 → Fin S4096x1x32.rank)
  bcast_S_S4096x1x32 : S_.BroadcastsInDim S4096x1x32 (![] : Fin 0 → Fin S4096x1x32.rank)
  bcast_S16_S1x1x16_2 : S16.BroadcastsInDim S1x1x16 (![2] : Fin 1 → Fin S1x1x16.rank)
  bcast_S1x1x16_S4096x1x16_0_1_2 : S1x1x16.BroadcastsInDim S4096x1x16 (![0, 1, 2] : Fin 3 → Fin S4096x1x16.rank)
  dot_S4096x1x40000_S128x40000_S4096x1x128_2_1_01_0_n_n_wf : DotDims.WF S4096x1x40000 S128x40000 S4096x1x128 [2] [1] [0, 1] [0] [] []
  dot_S4096x1x128_S64x128_S4096x1x64_2_1_01_0_n_n_wf : DotDims.WF S4096x1x128 S64x128 S4096x1x64 [2] [1] [0, 1] [0] [] []
  dot_S4096x1x64_S32x64_S4096x1x32_2_1_01_0_n_n_wf : DotDims.WF S4096x1x64 S32x64 S4096x1x32 [2] [1] [0, 1] [0] [] []
  dot_S4096x1x32_S16x32_S4096x1x16_2_1_01_0_n_n_wf : DotDims.WF S4096x1x32 S16x32 S4096x1x16 [2] [1] [0, 1] [0] [] []

variable [Facts₀]

def dot_S4096x1x40000_S128x40000_S4096x1x128_2_1_01_0_n_n : DotDims S4096x1x40000 S128x40000 S4096x1x128 where
  lhsContracting := [2]
  rhsContracting := [1]
  lhsNonContracting := [0, 1]
  rhsNonContracting := [0]
  lhsBatch := []
  rhsBatch := []
  wf := dot_S4096x1x40000_S128x40000_S4096x1x128_2_1_01_0_n_n_wf
def dot_S4096x1x128_S64x128_S4096x1x64_2_1_01_0_n_n : DotDims S4096x1x128 S64x128 S4096x1x64 where
  lhsContracting := [2]
  rhsContracting := [1]
  lhsNonContracting := [0, 1]
  rhsNonContracting := [0]
  lhsBatch := []
  rhsBatch := []
  wf := dot_S4096x1x128_S64x128_S4096x1x64_2_1_01_0_n_n_wf
def dot_S4096x1x64_S32x64_S4096x1x32_2_1_01_0_n_n : DotDims S4096x1x64 S32x64 S4096x1x32 where
  lhsContracting := [2]
  rhsContracting := [1]
  lhsNonContracting := [0, 1]
  rhsNonContracting := [0]
  lhsBatch := []
  rhsBatch := []
  wf := dot_S4096x1x64_S32x64_S4096x1x32_2_1_01_0_n_n_wf
def dot_S4096x1x32_S16x32_S4096x1x16_2_1_01_0_n_n : DotDims S4096x1x32 S16x32 S4096x1x16 where
  lhsContracting := [2]
  rhsContracting := [1]
  lhsNonContracting := [0, 1]
  rhsNonContracting := [0]
  lhsBatch := []
  rhsBatch := []
  wf := dot_S4096x1x32_S16x32_S4096x1x16_2_1_01_0_n_n_wf

class Facts : Prop extends Facts₀ where

variable [Facts]
-- ==== Proof.RefStages.lean ====
/-
  The reference's run, read back layer by layer.

  The reference is 107 whole-array operations in a row. Cut after each of the three leaky rectifiers
  they fall into four stretches, one per dense layer. A stretch reads the stretches before it only
  through one array, the previous layer's activation; so what it leaves in its last buffer is the
  generated stage of that buffer (`Read.val_main_v27`, `…v54`, `…v81`, `…v85`) as soon as the
  activation it starts from is the stage before (`stageA` … `stageD`), and it leaves the weights and
  biases of the later layers alone (`keepA_k` …). Running the four stretches one after the other is
  running the whole list (`after_ops`), and the program's run is the list's (`run`): it terminates,
  the result buffer holds the last stage of the argument arrays, the arguments are unchanged.
-/
import proofs.«157243_j48301202211328_1_alg».proof.Proof.RefRead
import Idealize.ShloMosaic.Lib.StableHlo.Run
import Idealize.ShloMosaic.Lib.Pipeline.Frame

noncomputable section

namespace Cert.ReferenceIdeal.Staged

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

abbrev opsA : List (HloOp τ sig (Elt F)) :=
  [ binary main_arg0 main_arg1 main_v0 ((fun a b => concatenate S4096x1x40000 2 [⟨S4096x1x20000, a⟩, ⟨S4096x1x20000, b⟩] concatenates_S4096x1x20000_S4096x1x20000_S4096x1x40000_d2) : (⟨S4096x1x20000, .f32⟩ : BufTy).Contents (Elt F) → (⟨S4096x1x20000, .f32⟩ : BufTy).Contents (Elt F) → (⟨S4096x1x40000, .f32⟩ : BufTy).Contents (Elt F)),
        binary main_v0 main_arg2 main_v1 ((fun l r => Host.dotGeneral dot_S4096x1x40000_S128x40000_S4096x1x128_2_1_01_0_n_n none l r) : (⟨S4096x1x40000, .f32⟩ : BufTy).Contents (Elt F) → (⟨S128x40000, .f32⟩ : BufTy).Contents (Elt F) → (⟨S4096x1x128, .f32⟩ : BufTy).Contents (Elt F)),
        unary main_arg3 main_v2 (broadcastInDim S1x1x128 ![2] bcast_S128_S1x1x128_2 : (⟨S128, .f32⟩ : BufTy).Contents (Elt F) → (⟨S1x1x128, .f32⟩ : BufTy).Contents (Elt F)),
        unary main_v2 main_v3 (broadcastInDim S4096x1x128 ![0, 1, 2] bcast_S1x1x128_S4096x1x128_0_1_2 : (⟨S1x1x128, .f32⟩ : BufTy).Contents (Elt F) → (⟨S4096x1x128, .f32⟩ : BufTy).Contents (Elt F)),
        binary main_v1 main_v3 main_v4 (addf : (⟨S4096x1x128, .f32⟩ : BufTy).Contents (Elt F) → (⟨S4096x1x128, .f32⟩ : BufTy).Contents (Elt F) → (⟨S4096x1x128, .f32⟩ : BufTy).Contents (Elt F)),
        nullary main_cst (constant S_ .f32 0x00000000#32),
        binary main_v4 main_cst main_v5 ((fun x v => Host.reduceAdd x v reducesTo_S4096x1x128_S4096x1_d2 h_S_) : (⟨S4096x1x128, .f32⟩ : BufTy).Contents (Elt F) → (⟨S_, .f32⟩ : BufTy).Contents (Elt F) → (⟨S4096x1, .f32⟩ : BufTy).Contents (Elt F)),
        unary main_v5 main_v6 (broadcastInDim S4096x1x1 ![0, 1] bcast_S4096x1_S4096x1x1_0_1 : (⟨S4096x1, .f32⟩ : BufTy).Contents (Elt F) → (⟨S4096x1x1, .f32⟩ : BufTy).Contents (Elt F)),
        nullary main_cst_0 (constant S_ .f32 0x43000000#32),
        unary main_cst_0 main_v7 (broadcastInDim S4096x1x1 ![] bcast_S_S4096x1x1 : (⟨S_, .f32⟩ : BufTy).Contents (Elt F) → (⟨S4096x1x1, .f32⟩ : BufTy).Contents (Elt F)),
        binary main_v6 main_v7 main_v8 (Host.divf : (⟨S4096x1x1, .f32⟩ : BufTy).Contents (Elt F) → (⟨S4096x1x1, .f32⟩ : BufTy).Contents (Elt F) → (⟨S4096x1x1, .f32⟩ : BufTy).Contents (Elt F)),
        unary main_v8 main_v9 (broadcastInDim S4096x1x128 ![0, 1, 2] bcast_S4096x1x1_S4096x1x128_0_1_2 : (⟨S4096x1x1, .f32⟩ : BufTy).Contents (Elt F) → (⟨S4096x1x128, .f32⟩ : BufTy).Contents (Elt F)),
        binary main_v4 main_v9 main_v10 (subf : (⟨S4096x1x128, .f32⟩ : BufTy).Contents (Elt F) → (⟨S4096x1x128, .f32⟩ : BufTy).Contents (Elt F) → (⟨S4096x1x128, .f32⟩ : BufTy).Contents (Elt F)),
        binary main_v10 main_v10 main_v11 (mulf : (⟨S4096x1x128, .f32⟩ : BufTy).Contents (Elt F) → (⟨S4096x1x128, .f32⟩ : BufTy).Contents (Elt F) → (⟨S4096x1x128, .f32⟩ : BufTy).Contents (Elt F)),
        nullary main_cst_1 (constant S_ .f32 0x00000000#32),
        binary main_v11 main_cst_1 main_v12 ((fun x v => Host.reduceAdd x v reducesTo_S4096x1x128_S4096x1_d2 h_S_) : (⟨S4096x1x128, .f32⟩ : BufTy).Contents (Elt F) → (⟨S_, .f32⟩ : BufTy).Contents (Elt F) → (⟨S4096x1, .f32⟩ : BufTy).Contents (Elt F)),
        unary main_v12 main_v13 (broadcastInDim S4096x1x1 ![0, 1] bcast_S4096x1_S4096x1x1_0_1 : (⟨S4096x1, .f32⟩ : BufTy).Contents (Elt F) → (⟨S4096x1x1, .f32⟩ : BufTy).Contents (Elt F)),
        nullary main_cst_2 (constant S_ .f32 0x43000000#32),
        unary main_cst_2 main_v14 (broadcastInDim S4096x1x1 ![] bcast_S_S4096x1x1 : (⟨S_, .f32⟩ : BufTy).Contents (Elt F) → (⟨S4096x1x1, .f32⟩ : BufTy).Contents (Elt F)),
        binary main_v13 main_v14 main_v15 (Host.divf : (⟨S4096x1x1, .f32⟩ : BufTy).Contents (Elt F) → (⟨S4096x1x1, .f32⟩ : BufTy).Contents (Elt F) → (⟨S4096x1x1, .f32⟩ : BufTy).Contents (Elt F)),
        unary main_v8 main_v16 (broadcastInDim S4096x1x128 ![0, 1, 2] bcast_S4096x1x1_S4096x1x128_0_1_2 : (⟨S4096x1x1, .f32⟩ : BufTy).Contents (Elt F) → (⟨S4096x1x128, .f32⟩ : BufTy).Contents (Elt F)),
        binary main_v4 main_v16 main_v17 (subf : (⟨S4096x1x128, .f32⟩ : BufTy).Contents (Elt F) → (⟨S4096x1x128, .f32⟩ : BufTy).Contents (Elt F) → (⟨S4096x1x128, .f32⟩ : BufTy).Contents (Elt F)),
        nullary main_cst_3 (constant S_ .f32 0x3727C5AC#32),
        unary main_cst_3 main_v18 (broadcastInDim S4096x1x1 ![] bcast_S_S4096x1x1 : (⟨S_, .f32⟩ : BufTy).Contents (Elt F) → (⟨S4096x1x1, .f32⟩ : BufTy).Contents (Elt F)),
        binary main_v15 main_v18 main_v19 (addf : (⟨S4096x1x1, .f32⟩ : BufTy).Contents (Elt F) → (⟨S4096x1x1, .f32⟩ : BufTy).Contents (Elt F) → (⟨S4096x1x1, .f32⟩ : BufTy).Contents (Elt F)),
        unary main_v19 main_v20 (Host.rsqrt : (⟨S4096x1x1, .f32⟩ : BufTy).Contents (Elt F) → (⟨S4096x1x1, .f32⟩ : BufTy).Contents (Elt F)),
        unary main_v20 main_v21 (broadcastInDim S4096x1x128 ![0, 1, 2] bcast_S4096x1x1_S4096x1x128_0_1_2 : (⟨S4096x1x1, .f32⟩ : BufTy).Contents (Elt F) → (⟨S4096x1x128, .f32⟩ : BufTy).Contents (Elt F)),
        binary main_v17 main_v21 main_v22 (mulf : (⟨S4096x1x128, .f32⟩ : BufTy).Contents (Elt F) → (⟨S4096x1x128, .f32⟩ : BufTy).Contents (Elt F) → (⟨S4096x1x128, .f32⟩ : BufTy).Contents (Elt F)),
        nullary main_cst_4 (constant S_ .f32 0x00000000#32),
        unary main_cst_4 main_v23 (broadcastInDim S4096x1x128 ![] bcast_S_S4096x1x128 : (⟨S_, .f32⟩ : BufTy).Contents (Elt F) → (⟨S4096x1x128, .f32⟩ : BufTy).Contents (Elt F)),
        binary main_v22 main_v23 main_v24 (cmpf .oge : (⟨S4096x1x128, .f32⟩ : BufTy).Contents (Elt F) → (⟨S4096x1x128, .f32⟩ : BufTy).Contents (Elt F) → (⟨S4096x1x128, .i1⟩ : BufTy).Contents (Elt F)),
        nullary main_cst_5 (constant S_ .f32 0x3E4CCCCD#32),
        unary main_cst_5 main_v25 (broadcastInDim S4096x1x128 ![] bcast_S_S4096x1x128 : (⟨S_, .f32⟩ : BufTy).Contents (Elt F) → (⟨S4096x1x128, .f32⟩ : BufTy).Contents (Elt F)),
        binary main_v25 main_v22 main_v26 (mulf : (⟨S4096x1x128, .f32⟩ : BufTy).Contents (Elt F) → (⟨S4096x1x128, .f32⟩ : BufTy).Contents (Elt F) → (⟨S4096x1x128, .f32⟩ : BufTy).Contents (Elt F)),
        TRef.ternary (TRef.of (T := ⟨S4096x1x128, .i1⟩) main_v24) (TRef.of (T := ⟨S4096x1x128, .f32⟩) main_v22) (TRef.of (T := ⟨S4096x1x128, .f32⟩) main_v26) (TRef.of (T := ⟨S4096x1x128, .f32⟩) main_v27) select ]

abbrev opsB : List (HloOp τ sig (Elt F)) :=
  [     binary main_v27 main_arg4 main_v28 ((fun l r => Host.dotGeneral dot_S4096x1x128_S64x128_S4096x1x64_2_1_01_0_n_n none l r) : (⟨S4096x1x128, .f32⟩ : BufTy).Contents (Elt F) → (⟨S64x128, .f32⟩ : BufTy).Contents (Elt F) → (⟨S4096x1x64, .f32⟩ : BufTy).Contents (Elt F)),
        unary main_arg5 main_v29 (broadcastInDim S1x1x64 ![2] bcast_S64_S1x1x64_2 : (⟨S64, .f32⟩ : BufTy).Contents (Elt F) → (⟨S1x1x64, .f32⟩ : BufTy).Contents (Elt F)),
        unary main_v29 main_v30 (broadcastInDim S4096x1x64 ![0, 1, 2] bcast_S1x1x64_S4096x1x64_0_1_2 : (⟨S1x1x64, .f32⟩ : BufTy).Contents (Elt F) → (⟨S4096x1x64, .f32⟩ : BufTy).Contents (Elt F)),
        binary main_v28 main_v30 main_v31 (addf : (⟨S4096x1x64, .f32⟩ : BufTy).Contents (Elt F) → (⟨S4096x1x64, .f32⟩ : BufTy).Contents (Elt F) → (⟨S4096x1x64, .f32⟩ : BufTy).Contents (Elt F)),
        nullary main_cst_6 (constant S_ .f32 0x00000000#32),
        binary main_v31 main_cst_6 main_v32 ((fun x v => Host.reduceAdd x v reducesTo_S4096x1x64_S4096x1_d2 h_S_) : (⟨S4096x1x64, .f32⟩ : BufTy).Contents (Elt F) → (⟨S_, .f32⟩ : BufTy).Contents (Elt F) → (⟨S4096x1, .f32⟩ : BufTy).Contents (Elt F)),
        unary main_v32 main_v33 (broadcastInDim S4096x1x1 ![0, 1] bcast_S4096x1_S4096x1x1_0_1 : (⟨S4096x1, .f32⟩ : BufTy).Contents (Elt F) → (⟨S4096x1x1, .f32⟩ : BufTy).Contents (Elt F)),
        nullary main_cst_7 (constant S_ .f32 0x42800000#32),
        unary main_cst_7 main_v34 (broadcastInDim S4096x1x1 ![] bcast_S_S4096x1x1 : (⟨S_, .f32⟩ : BufTy).Contents (Elt F) → (⟨S4096x1x1, .f32⟩ : BufTy).Contents (Elt F)),
        binary main_v33 main_v34 main_v35 (Host.divf : (⟨S4096x1x1, .f32⟩ : BufTy).Contents (Elt F) → (⟨S4096x1x1, .f32⟩ : BufTy).Contents (Elt F) → (⟨S4096x1x1, .f32⟩ : BufTy).Contents (Elt F)),
        unary main_v35 main_v36 (broadcastInDim S4096x1x64 ![0, 1, 2] bcast_S4096x1x1_S4096x1x64_0_1_2 : (⟨S4096x1x1, .f32⟩ : BufTy).Contents (Elt F) → (⟨S4096x1x64, .f32⟩ : BufTy).Contents (Elt F)),
        binary main_v31 main_v36 main_v37 (subf : (⟨S4096x1x64, .f32⟩ : BufTy).Contents (Elt F) → (⟨S4096x1x64, .f32⟩ : BufTy).Contents (Elt F) → (⟨S4096x1x64, .f32⟩ : BufTy).Contents (Elt F)),
        binary main_v37 main_v37 main_v38 (mulf : (⟨S4096x1x64, .f32⟩ : BufTy).Contents (Elt F) → (⟨S4096x1x64, .f32⟩ : BufTy).Contents (Elt F) → (⟨S4096x1x64, .f32⟩ : BufTy).Contents (Elt F)),
        nullary main_cst_8 (constant S_ .f32 0x00000000#32),
        binary main_v38 main_cst_8 main_v39 ((fun x v => Host.reduceAdd x v reducesTo_S4096x1x64_S4096x1_d2 h_S_) : (⟨S4096x1x64, .f32⟩ : BufTy).Contents (Elt F) → (⟨S_, .f32⟩ : BufTy).Contents (Elt F) → (⟨S4096x1, .f32⟩ : BufTy).Contents (Elt F)),
        unary main_v39 main_v40 (broadcastInDim S4096x1x1 ![0, 1] bcast_S4096x1_S4096x1x1_0_1 : (⟨S4096x1, .f32⟩ : BufTy).Contents (Elt F) → (⟨S4096x1x1, .f32⟩ : BufTy).Contents (Elt F)),
        nullary main_cst_9 (constant S_ .f32 0x42800000#32),
        unary main_cst_9 main_v41 (broadcastInDim S4096x1x1 ![] bcast_S_S4096x1x1 : (⟨S_, .f32⟩ : BufTy).Contents (Elt F) → (⟨S4096x1x1, .f32⟩ : BufTy).Contents (Elt F)),
        binary main_v40 main_v41 main_v42 (Host.divf : (⟨S4096x1x1, .f32⟩ : BufTy).Contents (Elt F) → (⟨S4096x1x1, .f32⟩ : BufTy).Contents (Elt F) → (⟨S4096x1x1, .f32⟩ : BufTy).Contents (Elt F)),
        unary main_v35 main_v43 (broadcastInDim S4096x1x64 ![0, 1, 2] bcast_S4096x1x1_S4096x1x64_0_1_2 : (⟨S4096x1x1, .f32⟩ : BufTy).Contents (Elt F) → (⟨S4096x1x64, .f32⟩ : BufTy).Contents (Elt F)),
        binary main_v31 main_v43 main_v44 (subf : (⟨S4096x1x64, .f32⟩ : BufTy).Contents (Elt F) → (⟨S4096x1x64, .f32⟩ : BufTy).Contents (Elt F) → (⟨S4096x1x64, .f32⟩ : BufTy).Contents (Elt F)),
        nullary main_cst_10 (constant S_ .f32 0x3727C5AC#32),
        unary main_cst_10 main_v45 (broadcastInDim S4096x1x1 ![] bcast_S_S4096x1x1 : (⟨S_, .f32⟩ : BufTy).Contents (Elt F) → (⟨S4096x1x1, .f32⟩ : BufTy).Contents (Elt F)),
        binary main_v42 main_v45 main_v46 (addf : (⟨S4096x1x1, .f32⟩ : BufTy).Contents (Elt F) → (⟨S4096x1x1, .f32⟩ : BufTy).Contents (Elt F) → (⟨S4096x1x1, .f32⟩ : BufTy).Contents (Elt F)),
        unary main_v46 main_v47 (Host.rsqrt : (⟨S4096x1x1, .f32⟩ : BufTy).Contents (Elt F) → (⟨S4096x1x1, .f32⟩ : BufTy).Contents (Elt F)),
        unary main_v47 main_v48 (broadcastInDim S4096x1x64 ![0, 1, 2] bcast_S4096x1x1_S4096x1x64_0_1_2 : (⟨S4096x1x1, .f32⟩ : BufTy).Contents (Elt F) → (⟨S4096x1x64, .f32⟩ : BufTy).Contents (Elt F)),
        binary main_v44 main_v48 main_v49 (mulf : (⟨S4096x1x64, .f32⟩ : BufTy).Contents (Elt F) → (⟨S4096x1x64, .f32⟩ : BufTy).Contents (Elt F) → (⟨S4096x1x64, .f32⟩ : BufTy).Contents (Elt F)),
        nullary main_cst_11 (constant S_ .f32 0x00000000#32),
        unary main_cst_11 main_v50 (broadcastInDim S4096x1x64 ![] bcast_S_S4096x1x64 : (⟨S_, .f32⟩ : BufTy).Contents (Elt F) → (⟨S4096x1x64, .f32⟩ : BufTy).Contents (Elt F)),
        binary main_v49 main_v50 main_v51 (cmpf .oge : (⟨S4096x1x64, .f32⟩ : BufTy).Contents (Elt F) → (⟨S4096x1x64, .f32⟩ : BufTy).Contents (Elt F) → (⟨S4096x1x64, .i1⟩ : BufTy).Contents (Elt F)),
        nullary main_cst_12 (constant S_ .f32 0x3E4CCCCD#32),
        unary main_cst_12 main_v52 (broadcastInDim S4096x1x64 ![] bcast_S_S4096x1x64 : (⟨S_, .f32⟩ : BufTy).Contents (Elt F) → (⟨S4096x1x64, .f32⟩ : BufTy).Contents (Elt F)),
        binary main_v52 main_v49 main_v53 (mulf : (⟨S4096x1x64, .f32⟩ : BufTy).Contents (Elt F) → (⟨S4096x1x64, .f32⟩ : BufTy).Contents (Elt F) → (⟨S4096x1x64, .f32⟩ : BufTy).Contents (Elt F)),
        TRef.ternary (TRef.of (T := ⟨S4096x1x64, .i1⟩) main_v51) (TRef.of (T := ⟨S4096x1x64, .f32⟩) main_v49) (TRef.of (T := ⟨S4096x1x64, .f32⟩) main_v53) (TRef.of (T := ⟨S4096x1x64, .f32⟩) main_v54) select ]

abbrev opsC : List (HloOp τ sig (Elt F)) :=
  [     binary main_v54 main_arg6 main_v55 ((fun l r => Host.dotGeneral dot_S4096x1x64_S32x64_S4096x1x32_2_1_01_0_n_n none l r) : (⟨S4096x1x64, .f32⟩ : BufTy).Contents (Elt F) → (⟨S32x64, .f32⟩ : BufTy).Contents (Elt F) → (⟨S4096x1x32, .f32⟩ : BufTy).Contents (Elt F)),
        unary main_arg7 main_v56 (broadcastInDim S1x1x32 ![2] bcast_S32_S1x1x32_2 : (⟨S32, .f32⟩ : BufTy).Contents (Elt F) → (⟨S1x1x32, .f32⟩ : BufTy).Contents (Elt F)),
        unary main_v56 main_v57 (broadcastInDim S4096x1x32 ![0, 1, 2] bcast_S1x1x32_S4096x1x32_0_1_2 : (⟨S1x1x32, .f32⟩ : BufTy).Contents (Elt F) → (⟨S4096x1x32, .f32⟩ : BufTy).Contents (Elt F)),
        binary main_v55 main_v57 main_v58 (addf : (⟨S4096x1x32, .f32⟩ : BufTy).Contents (Elt F) → (⟨S4096x1x32, .f32⟩ : BufTy).Contents (Elt F) → (⟨S4096x1x32, .f32⟩ : BufTy).Contents (Elt F)),
        nullary main_cst_13 (constant S_ .f32 0x00000000#32),
        binary main_v58 main_cst_13 main_v59 ((fun x v => Host.reduceAdd x v reducesTo_S4096x1x32_S4096x1_d2 h_S_) : (⟨S4096x1x32, .f32⟩ : BufTy).Contents (Elt F) → (⟨S_, .f32⟩ : BufTy).Contents (Elt F) → (⟨S4096x1, .f32⟩ : BufTy).Contents (Elt F)),
        unary main_v59 main_v60 (broadcastInDim S4096x1x1 ![0, 1] bcast_S4096x1_S4096x1x1_0_1 : (⟨S4096x1, .f32⟩ : BufTy).Contents (Elt F) → (⟨S4096x1x1, .f32⟩ : BufTy).Contents (Elt F)),
        nullary main_cst_14 (constant S_ .f32 0x42000000#32),
        unary main_cst_14 main_v61 (broadcastInDim S4096x1x1 ![] bcast_S_S4096x1x1 : (⟨S_, .f32⟩ : BufTy).Contents (Elt F) → (⟨S4096x1x1, .f32⟩ : BufTy).Contents (Elt F)),
        binary main_v60 main_v61 main_v62 (Host.divf : (⟨S4096x1x1, .f32⟩ : BufTy).Contents (Elt F) → (⟨S4096x1x1, .f32⟩ : BufTy).Contents (Elt F) → (⟨S4096x1x1, .f32⟩ : BufTy).Contents (Elt F)),
        unary main_v62 main_v63 (broadcastInDim S4096x1x32 ![0, 1, 2] bcast_S4096x1x1_S4096x1x32_0_1_2 : (⟨S4096x1x1, .f32⟩ : BufTy).Contents (Elt F) → (⟨S4096x1x32, .f32⟩ : BufTy).Contents (Elt F)),
        binary main_v58 main_v63 main_v64 (subf : (⟨S4096x1x32, .f32⟩ : BufTy).Contents (Elt F) → (⟨S4096x1x32, .f32⟩ : BufTy).Contents (Elt F) → (⟨S4096x1x32, .f32⟩ : BufTy).Contents (Elt F)),
        binary main_v64 main_v64 main_v65 (mulf : (⟨S4096x1x32, .f32⟩ : BufTy).Contents (Elt F) → (⟨S4096x1x32, .f32⟩ : BufTy).Contents (Elt F) → (⟨S4096x1x32, .f32⟩ : BufTy).Contents (Elt F)),
        nullary main_cst_15 (constant S_ .f32 0x00000000#32),
        binary main_v65 main_cst_15 main_v66 ((fun x v => Host.reduceAdd x v reducesTo_S4096x1x32_S4096x1_d2 h_S_) : (⟨S4096x1x32, .f32⟩ : BufTy).Contents (Elt F) → (⟨S_, .f32⟩ : BufTy).Contents (Elt F) → (⟨S4096x1, .f32⟩ : BufTy).Contents (Elt F)),
        unary main_v66 main_v67 (broadcastInDim S4096x1x1 ![0, 1] bcast_S4096x1_S4096x1x1_0_1 : (⟨S4096x1, .f32⟩ : BufTy).Contents (Elt F) → (⟨S4096x1x1, .f32⟩ : BufTy).Contents (Elt F)),
        nullary main_cst_16 (constant S_ .f32 0x42000000#32),
        unary main_cst_16 main_v68 (broadcastInDim S4096x1x1 ![] bcast_S_S4096x1x1 : (⟨S_, .f32⟩ : BufTy).Contents (Elt F) → (⟨S4096x1x1, .f32⟩ : BufTy).Contents (Elt F)),
        binary main_v67 main_v68 main_v69 (Host.divf : (⟨S4096x1x1, .f32⟩ : BufTy).Contents (Elt F) → (⟨S4096x1x1, .f32⟩ : BufTy).Contents (Elt F) → (⟨S4096x1x1, .f32⟩ : BufTy).Contents (Elt F)),
        unary main_v62 main_v70 (broadcastInDim S4096x1x32 ![0, 1, 2] bcast_S4096x1x1_S4096x1x32_0_1_2 : (⟨S4096x1x1, .f32⟩ : BufTy).Contents (Elt F) → (⟨S4096x1x32, .f32⟩ : BufTy).Contents (Elt F)),
        binary main_v58 main_v70 main_v71 (subf : (⟨S4096x1x32, .f32⟩ : BufTy).Contents (Elt F) → (⟨S4096x1x32, .f32⟩ : BufTy).Contents (Elt F) → (⟨S4096x1x32, .f32⟩ : BufTy).Contents (Elt F)),
        nullary main_cst_17 (constant S_ .f32 0x3727C5AC#32),
        unary main_cst_17 main_v72 (broadcastInDim S4096x1x1 ![] bcast_S_S4096x1x1 : (⟨S_, .f32⟩ : BufTy).Contents (Elt F) → (⟨S4096x1x1, .f32⟩ : BufTy).Contents (Elt F)),
        binary main_v69 main_v72 main_v73 (addf : (⟨S4096x1x1, .f32⟩ : BufTy).Contents (Elt F) → (⟨S4096x1x1, .f32⟩ : BufTy).Contents (Elt F) → (⟨S4096x1x1, .f32⟩ : BufTy).Contents (Elt F)),
        unary main_v73 main_v74 (Host.rsqrt : (⟨S4096x1x1, .f32⟩ : BufTy).Contents (Elt F) → (⟨S4096x1x1, .f32⟩ : BufTy).Contents (Elt F)),
        unary main_v74 main_v75 (broadcastInDim S4096x1x32 ![0, 1, 2] bcast_S4096x1x1_S4096x1x32_0_1_2 : (⟨S4096x1x1, .f32⟩ : BufTy).Contents (Elt F) → (⟨S4096x1x32, .f32⟩ : BufTy).Contents (Elt F)),
        binary main_v71 main_v75 main_v76 (mulf : (⟨S4096x1x32, .f32⟩ : BufTy).Contents (Elt F) → (⟨S4096x1x32, .f32⟩ : BufTy).Contents (Elt F) → (⟨S4096x1x32, .f32⟩ : BufTy).Contents (Elt F)),
        nullary main_cst_18 (constant S_ .f32 0x00000000#32),
        unary main_cst_18 main_v77 (broadcastInDim S4096x1x32 ![] bcast_S_S4096x1x32 : (⟨S_, .f32⟩ : BufTy).Contents (Elt F) → (⟨S4096x1x32, .f32⟩ : BufTy).Contents (Elt F)),
        binary main_v76 main_v77 main_v78 (cmpf .oge : (⟨S4096x1x32, .f32⟩ : BufTy).Contents (Elt F) → (⟨S4096x1x32, .f32⟩ : BufTy).Contents (Elt F) → (⟨S4096x1x32, .i1⟩ : BufTy).Contents (Elt F)),
        nullary main_cst_19 (constant S_ .f32 0x3E4CCCCD#32),
        unary main_cst_19 main_v79 (broadcastInDim S4096x1x32 ![] bcast_S_S4096x1x32 : (⟨S_, .f32⟩ : BufTy).Contents (Elt F) → (⟨S4096x1x32, .f32⟩ : BufTy).Contents (Elt F)),
        binary main_v79 main_v76 main_v80 (mulf : (⟨S4096x1x32, .f32⟩ : BufTy).Contents (Elt F) → (⟨S4096x1x32, .f32⟩ : BufTy).Contents (Elt F) → (⟨S4096x1x32, .f32⟩ : BufTy).Contents (Elt F)),
        TRef.ternary (TRef.of (T := ⟨S4096x1x32, .i1⟩) main_v78) (TRef.of (T := ⟨S4096x1x32, .f32⟩) main_v76) (TRef.of (T := ⟨S4096x1x32, .f32⟩) main_v80) (TRef.of (T := ⟨S4096x1x32, .f32⟩) main_v81) select ]

abbrev opsD : List (HloOp τ sig (Elt F)) :=
  [     binary main_v81 main_arg8 main_v82 ((fun l r => Host.dotGeneral dot_S4096x1x32_S16x32_S4096x1x16_2_1_01_0_n_n none l r) : (⟨S4096x1x32, .f32⟩ : BufTy).Contents (Elt F) → (⟨S16x32, .f32⟩ : BufTy).Contents (Elt F) → (⟨S4096x1x16, .f32⟩ : BufTy).Contents (Elt F)),
        unary main_arg9 main_v83 (broadcastInDim S1x1x16 ![2] bcast_S16_S1x1x16_2 : (⟨S16, .f32⟩ : BufTy).Contents (Elt F) → (⟨S1x1x16, .f32⟩ : BufTy).Contents (Elt F)),
        unary main_v83 main_v84 (broadcastInDim S4096x1x16 ![0, 1, 2] bcast_S1x1x16_S4096x1x16_0_1_2 : (⟨S1x1x16, .f32⟩ : BufTy).Contents (Elt F) → (⟨S4096x1x16, .f32⟩ : BufTy).Contents (Elt F)),
        binary main_v82 main_v84 main_v85 (addf : (⟨S4096x1x16, .f32⟩ : BufTy).Contents (Elt F) → (⟨S4096x1x16, .f32⟩ : BufTy).Contents (Elt F) → (⟨S4096x1x16, .f32⟩ : BufTy).Contents (Elt F)) ]

theorem ops_eq : (ops : List (HloOp τ sig (Elt F))) = opsA ++ (opsB ++ (opsC ++ opsD)) := rfl

variable (V : Valuation τ sig (Elt F))

set_option maxHeartbeats 4000000 in
set_option maxRecDepth 8192 in
theorem stageA : after opsA V (Proc.devRef .tc main_v27)
    = val_main_v27 (F := F) (V (Proc.devRef .tc main_arg0)) (V (Proc.devRef .tc main_arg1)) (V (Proc.devRef .tc main_arg2)) (V (Proc.devRef .tc main_arg3)) := by
  after_results_simp <;> rfl

set_option maxHeartbeats 4000000 in
set_option maxRecDepth 8192 in
/-- The second layer's operations, from contents whose first-layer activation is the stage `val_main_v27`. -/
theorem stageB (x0 x1 : (⟨S4096x1x20000, .f32⟩ : BufTy).Contents (Elt F)) (x2 : (⟨S128x40000, .f32⟩ : BufTy).Contents (Elt F))
    (x3 : (⟨S128, .f32⟩ : BufTy).Contents (Elt F)) (h : (V (Proc.devRef .tc main_v27)) = val_main_v27 (F := F) x0 x1 x2 x3) :
    after opsB V (Proc.devRef .tc main_v54) = val_main_v54 (F := F) x0 x1 x2 x3 (V (Proc.devRef .tc main_arg4)) (V (Proc.devRef .tc main_arg5)) := by
  after_results_simp
  rw [h]
  rfl

set_option maxHeartbeats 4000000 in
set_option maxRecDepth 8192 in
/-- The third layer's operations likewise. -/
theorem stageC (x0 x1 : (⟨S4096x1x20000, .f32⟩ : BufTy).Contents (Elt F)) (x2 : (⟨S128x40000, .f32⟩ : BufTy).Contents (Elt F))
    (x3 : (⟨S128, .f32⟩ : BufTy).Contents (Elt F)) (x4 : (⟨S64x128, .f32⟩ : BufTy).Contents (Elt F)) (x5 : (⟨S64, .f32⟩ : BufTy).Contents (Elt F))
    (h : (V (Proc.devRef .tc main_v54)) = val_main_v54 (F := F) x0 x1 x2 x3 x4 x5) :
    after opsC V (Proc.devRef .tc main_v81) = val_main_v81 (F := F) x0 x1 x2 x3 x4 x5 (V (Proc.devRef .tc main_arg6)) (V (Proc.devRef .tc main_arg7)) := by
  after_results_simp
  rw [h]
  rfl

set_option maxHeartbeats 4000000 in
/-- The last layer's operations likewise. -/
theorem stageD (x0 x1 : (⟨S4096x1x20000, .f32⟩ : BufTy).Contents (Elt F)) (x2 : (⟨S128x40000, .f32⟩ : BufTy).Contents (Elt F))
    (x3 : (⟨S128, .f32⟩ : BufTy).Contents (Elt F)) (x4 : (⟨S64x128, .f32⟩ : BufTy).Contents (Elt F)) (x5 : (⟨S64, .f32⟩ : BufTy).Contents (Elt F))
    (x6 : (⟨S32x64, .f32⟩ : BufTy).Contents (Elt F)) (x7 : (⟨S32, .f32⟩ : BufTy).Contents (Elt F))
    (h : (V (Proc.devRef .tc main_v81)) = val_main_v81 (F := F) x0 x1 x2 x3 x4 x5 x6 x7) :
    after opsD V (Proc.devRef .tc main_v85) = val_main_v85 (F := F) x0 x1 x2 x3 x4 x5 x6 x7 (V (Proc.devRef .tc main_arg8)) (V (Proc.devRef .tc main_arg9)) := by
  after_results_simp
  rw [h]
  rfl

set_option maxHeartbeats 4000000 in
theorem keepA_4 : after opsA V (Proc.devRef .tc main_arg4) = V (Proc.devRef .tc main_arg4) := by
  after_results_simp <;> rfl

set_option maxHeartbeats 4000000 in
theorem keepA_5 : after opsA V (Proc.devRef .tc main_arg5) = V (Proc.devRef .tc main_arg5) := by
  after_results_simp <;> rfl

set_option maxHeartbeats 4000000 in
theorem keepA_6 : after opsA V (Proc.devRef .tc main_arg6) = V (Proc.devRef .tc main_arg6) := by
  after_results_simp <;> rfl

set_option maxHeartbeats 4000000 in
theorem keepA_7 : after opsA V (Proc.devRef .tc main_arg7) = V (Proc.devRef .tc main_arg7) := by
  after_results_simp <;> rfl

set_option maxHeartbeats 4000000 in
theorem keepA_8 : after opsA V (Proc.devRef .tc main_arg8) = V (Proc.devRef .tc main_arg8) := by
  after_results_simp <;> rfl

set_option maxHeartbeats 4000000 in
theorem keepA_9 : after opsA V (Proc.devRef .tc main_arg9) = V (Proc.devRef .tc main_arg9) := by
  after_results_simp <;> rfl

set_option maxHeartbeats 4000000 in
theorem keepB_6 : after opsB V (Proc.devRef .tc main_arg6) = V (Proc.devRef .tc main_arg6) := by
  after_results_simp <;> rfl

set_option maxHeartbeats 4000000 in
theorem keepB_7 : after opsB V (Proc.devRef .tc main_arg7) = V (Proc.devRef .tc main_arg7) := by
  after_results_simp <;> rfl

set_option maxHeartbeats 4000000 in
theorem keepB_8 : after opsB V (Proc.devRef .tc main_arg8) = V (Proc.devRef .tc main_arg8) := by
  after_results_simp <;> rfl

set_option maxHeartbeats 4000000 in
theorem keepB_9 : after opsB V (Proc.devRef .tc main_arg9) = V (Proc.devRef .tc main_arg9) := by
  after_results_simp <;> rfl

set_option maxHeartbeats 4000000 in
theorem keepC_8 : after opsC V (Proc.devRef .tc main_arg8) = V (Proc.devRef .tc main_arg8) := by
  after_results_simp <;> rfl

set_option maxHeartbeats 4000000 in
theorem keepC_9 : after opsC V (Proc.devRef .tc main_arg9) = V (Proc.devRef .tc main_arg9) := by
  after_results_simp <;> rfl

/-- All 107 operations: the result buffer ends at the last stage of the arguments' contents. -/
theorem after_ops : after ops V (Proc.devRef .tc main_v85)
    = val_main_v85 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [ops_eq, StableHlo.after_append, StableHlo.after_append, StableHlo.after_append]
  have hA := stageA V
  have hB := stageB (after opsA V) _ _ _ _ hA
  have hC := stageC (after opsB (after opsA V)) _ _ _ _ _ _ hB
  have hD := stageD (after opsC (after opsB (after opsA V))) _ _ _ _ _ _ _ _ hC
  rw [hD, keepC_8, keepC_9, keepB_6, keepB_7, keepB_8, keepB_9, keepA_4, keepA_5, keepA_6, keepA_7, keepA_8, keepA_9]

set_option maxHeartbeats 4000000 in
set_option maxRecDepth 8192 in
theorem kept_0 : after ops V (Proc.devRef .tc main_arg0) = V (Proc.devRef .tc main_arg0) := by
  after_results_simp <;> rfl

set_option maxHeartbeats 4000000 in
set_option maxRecDepth 8192 in
theorem kept_1 : after ops V (Proc.devRef .tc main_arg1) = V (Proc.devRef .tc main_arg1) := by
  after_results_simp <;> rfl

set_option maxHeartbeats 4000000 in
set_option maxRecDepth 8192 in
theorem kept_2 : after ops V (Proc.devRef .tc main_arg2) = V (Proc.devRef .tc main_arg2) := by
  after_results_simp <;> rfl

set_option maxHeartbeats 4000000 in
set_option maxRecDepth 8192 in
theorem kept_3 : after ops V (Proc.devRef .tc main_arg3) = V (Proc.devRef .tc main_arg3) := by
  after_results_simp <;> rfl

set_option maxHeartbeats 4000000 in
set_option maxRecDepth 8192 in
theorem kept_4 : after ops V (Proc.devRef .tc main_arg4) = V (Proc.devRef .tc main_arg4) := by
  after_results_simp <;> rfl

set_option maxHeartbeats 4000000 in
set_option maxRecDepth 8192 in
theorem kept_5 : after ops V (Proc.devRef .tc main_arg5) = V (Proc.devRef .tc main_arg5) := by
  after_results_simp <;> rfl

set_option maxHeartbeats 4000000 in
set_option maxRecDepth 8192 in
theorem kept_6 : after ops V (Proc.devRef .tc main_arg6) = V (Proc.devRef .tc main_arg6) := by
  after_results_simp <;> rfl

set_option maxHeartbeats 4000000 in
set_option maxRecDepth 8192 in
theorem kept_7 : after ops V (Proc.devRef .tc main_arg7) = V (Proc.devRef .tc main_arg7) := by
  after_results_simp <;> rfl

set_option maxHeartbeats 4000000 in
set_option maxRecDepth 8192 in
theorem kept_8 : after ops V (Proc.devRef .tc main_arg8) = V (Proc.devRef .tc main_arg8) := by
  after_results_simp <;> rfl

set_option maxHeartbeats 4000000 in
set_option maxRecDepth 8192 in
theorem kept_9 : after ops V (Proc.devRef .tc main_arg9) = V (Proc.devRef .tc main_arg9) := by
  after_results_simp <;> rfl

variable (m : (ℓ : Loc nD τ sig) → Buf (Elt F) ℓ) (ρ : Dev nD → PrngReg)

set_option maxRecDepth 8192 in
set_option maxHeartbeats 40000000 in
/-- On every device, from any memory with zero counters: every weakly fair execution of the reference
    terminates with its result at the last stage of the arguments and the arguments unchanged. -/
theorem run : θ_run defs (onTc (τ := τ) (main (F := F))) ⟨m, fun _ => 0, ρ⟩ fun r => ∀ c : Dev nD,
      r.2.mem ((c.tc : Thread nD τ).loc main_v85) = val_main_v85 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v85).trans (after_ops _),
      (h c main_arg0).trans (kept_0 _),
      (h c main_arg1).trans (kept_1 _),
      (h c main_arg2).trans (kept_2 _),
      (h c main_arg3).trans (kept_3 _),
      (h c main_arg4).trans (kept_4 _),
      (h c main_arg5).trans (kept_5 _),
      (h c main_arg6).trans (kept_6 _),
      (h c main_arg7).trans (kept_7 _),
      (h c main_arg8).trans (kept_8 _),
      (h c main_arg9).trans (kept_9 _)⟩)
    (run_seq scopedRefs_eq scopedSems_eq defs main (fun _ => ops) main_eq (fun _ => ops_sub) m ρ)

end Cert.ReferenceIdeal.Staged

end
-- ==== Proof.MlpSpec.lean ====
/-
  The function both programs compute, one batch row at a time.

  A row `x = (x₁ | x₂)` of 40000 features (two halves of 20000) goes through four dense layers
  `h ↦ W h + b` of widths 128, 64, 32, 16. After each of the first three the row is normalised and
  passed through a leaky rectifier: with `m` the mean of the row's entries and `v` the mean of the
  squared deviations, an entry `h o` becomes `y = (h o - m) · (v + ε)^(-1/2)`, and then `y` when
  `0 ≤ y` and `s · y` otherwise. The means divide by the row's width (a power of two), `ε` and `s`
  are the two float constants the programs share, each read as the exact value of its pattern.

  The first layer's contraction over 40000 features is written as the sum of the two half
  contractions; `sum_halves` is the one law that is needed to meet a contraction written over the
  joined row: a finite sum over `Fin (a + b)` is the sum over the first `a` indices plus the sum
  over the last `b`, in any commutative monoid, hence on the extended reals with no finiteness
  assumption.
-/
import Idealize.ShloMosaic.PureOps.Ideal
import Idealize.ShloMosaic.PureOps.Ideal.Laws
import Idealize.ShloMosaic.Lib.ValueIdx
import Mathlib.Algebra.BigOperators.Fin

noncomputable section

namespace Cert.Mlp

open Idealize.ShloMosaic Idealize.ShloMosaic.ValueIdx

/-- A dense layer on one row: entry `o` is `∑ₖ x k · W o k + b o`. -/
def lin {d n : ℕ} (x : Fin d → EReal) (W : Fin n → Fin d → EReal) (b : Fin n → EReal) (o : Fin n) : EReal :=
  (∑ k : Fin d, x k * W o k) + b o

/-- The first dense layer, its contraction split over the two halves of the row. -/
def lin2 {d n : ℕ} (x₁ x₂ : Fin d → EReal) (Wa Wb : Fin n → Fin d → EReal) (b : Fin n → EReal) (o : Fin n) : EReal :=
  ((∑ k : Fin d, x₁ k * Wa o k) + ∑ k : Fin d, x₂ k * Wb o k) + b o

/-- Normalise a row to mean zero and unit variance (biased, `ε` added under the root), then the leaky
    rectifier. `cnt` is the float pattern of the row's width. -/
def normAct {n : ℕ} (cnt : BitVec 32) (h : Fin n → EReal) (o : Fin n) : EReal :=
  let c : EReal := Ideal.ofBits .f32 cnt
  let m : EReal := Ideal.div (∑ k : Fin n, h k) c
  let v : EReal := Ideal.div (∑ k : Fin n, (h k - m) * (h k - m)) c
  let y : EReal := (h o - m) * Ideal.rsqrt (v + Ideal.ofBits .f32 0x3727C5AC#32)
  Scalar.select (Ideal.cmp .oge y (Ideal.ofBits .f32 0x00000000#32)) y (Ideal.ofBits .f32 0x3E4CCCCD#32 * y)

/-- The whole network on one row. -/
def mlpRow (x₁ x₂ : Fin 20000 → EReal) (Wa Wb : Fin 128 → Fin 20000 → EReal) (b₁ : Fin 128 → EReal)
    (W₂ : Fin 64 → Fin 128 → EReal) (b₂ : Fin 64 → EReal) (W₃ : Fin 32 → Fin 64 → EReal) (b₃ : Fin 32 → EReal)
    (W₄ : Fin 16 → Fin 32 → EReal) (b₄ : Fin 16 → EReal) : Fin 16 → EReal :=
  lin (normAct 0x42000000#32 (lin (normAct 0x42800000#32 (lin (normAct 0x43000000#32 (lin2 x₁ x₂ Wa Wb b₁)) W₂ b₂)) W₃ b₃)) W₄ b₄

/-- The network on the whole batch, as a function of the ten argument arrays: row `i 0` of the two
    inputs, the first weight matrix read as its two column halves. -/
def G (a0 a1 : (⟨3, ![4096, 1, 20000]⟩ : Shape).Idx → EReal) (a2 : (⟨2, ![128, 40000]⟩ : Shape).Idx → EReal)
    (a3 : (⟨1, ![128]⟩ : Shape).Idx → EReal) (a4 : (⟨2, ![64, 128]⟩ : Shape).Idx → EReal) (a5 : (⟨1, ![64]⟩ : Shape).Idx → EReal)
    (a6 : (⟨2, ![32, 64]⟩ : Shape).Idx → EReal) (a7 : (⟨1, ![32]⟩ : Shape).Idx → EReal)
    (a8 : (⟨2, ![16, 32]⟩ : Shape).Idx → EReal) (a9 : (⟨1, ![16]⟩ : Shape).Idx → EReal) :
    (⟨3, ![4096, 1, 16]⟩ : Shape).Idx → EReal := fun i =>
  mlpRow (fun k => a0 (ix3 (i 0) (i 1) k)) (fun k => a1 (ix3 (i 0) (i 1) k))
    (fun o k => a2 (ix2 o (⟨k.val, by omega⟩ : Fin 40000))) (fun o k => a2 (ix2 o (⟨20000 + k.val, by omega⟩ : Fin 40000)))
    (fun o => a3 (ix1 o)) (fun o k => a4 (ix2 o k)) (fun o => a5 (ix1 o)) (fun o k => a6 (ix2 o k)) (fun o => a7 (ix1 o))
    (fun o k => a8 (ix2 o k)) (fun o => a9 (ix1 o)) (i 2)

/-- A sum over a joined index range is the sum over its first part plus the sum over its second. -/
theorem sum_halves {M : Type*} [AddCommMonoid M] (f : Fin 40000 → M) :
    ∑ k : Fin 40000, f k
      = (∑ k : Fin 20000, f ⟨k.val, by omega⟩) + ∑ k : Fin 20000, f ⟨20000 + k.val, by omega⟩ :=
  Fin.sum_univ_add (a := 20000) (b := 20000) f

end Cert.Mlp

end
-- ==== Proof.RefValue.lean ====
/-
  The reference's result, read back operation by operation, is the network `Cert.Mlp.G` of the
  argument arrays.

  One batch row `b` is followed through the program. The joined row read at a coordinate of its first
  or second half is the first or second input's row there, so the first contraction over 40000
  features is the sum of the two half contractions (`Cert.Mlp.sum_halves`) and the first stage is
  `lin2`. Each later dense stage is `lin` of the stage before it. Each normalisation is read in four
  steps: the row's mean (a sum started at zero, divided by the width), an entry's deviation from it,
  the mean of the squared deviations, and the scaled deviation; the choice between the scaled deviation
  and its multiple by the slope is then `normAct` word for word. The four dense stages and three
  normalisations compose to `mlpRow`.
-/
import proofs.«157243_j48301202211328_1_alg».proof.Proof.RefRead
import proofs.«157243_j48301202211328_1_alg».proof.Proof.MlpSpec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.Mlp

/-- The one coordinate of an axis of extent one. -/
local notation "𝟘" => (0 : Fin 1)

/-- Two rank-3 indices with the same three coordinates are equal. -/
local macro "idx3" : tactic =>
  `(tactic| (funext a; match a with | ⟨0, _⟩ => rfl | ⟨1, _⟩ => rfl | ⟨2, _⟩ => rfl))
/-- Two rank-2 indices with the same two coordinates are equal. -/
local macro "idx2" : tactic => `(tactic| (funext a; match a with | ⟨0, _⟩ => rfl | ⟨1, _⟩ => rfl))
/-- Two rank-1 indices with the same coordinate are equal. -/
local macro "idx1" : tactic => `(tactic| (funext a; match a with | ⟨0, _⟩ => rfl))

section Stages

variable (x0 x1 : (⟨S4096x1x20000, .f32⟩ : BufTy).Contents (Elt Ideal)) (x2 : (⟨S128x40000, .f32⟩ : BufTy).Contents (Elt Ideal))
  (x3 : (⟨S128, .f32⟩ : BufTy).Contents (Elt Ideal)) (x4 : (⟨S64x128, .f32⟩ : BufTy).Contents (Elt Ideal))
  (x5 : (⟨S64, .f32⟩ : BufTy).Contents (Elt Ideal)) (x6 : (⟨S32x64, .f32⟩ : BufTy).Contents (Elt Ideal))
  (x7 : (⟨S32, .f32⟩ : BufTy).Contents (Elt Ideal)) (x8 : (⟨S16x32, .f32⟩ : BufTy).Contents (Elt Ideal))
  (x9 : (⟨S16, .f32⟩ : BufTy).Contents (Elt Ideal))

/-! ## The joined row -/

/-- The joined row at a coordinate of its first half is the first input's row there. -/
theorem cat_left (b : Fin 4096) (k : Fin 20000) :
    val_main_v0 (F := Ideal) x0 x1 (ix3 b 𝟘 (⟨k.val, by omega⟩ : Fin 40000)) = x0 (ix3 b 𝟘 k) := by
  unfold val_main_v0
  exact concatenate_pair_apply_left (t := S4096x1x40000) (s₁ := S4096x1x20000) (s₂ := S4096x1x20000) 2 x0 x1
    concatenates_S4096x1x20000_S4096x1x20000_S4096x1x40000_d2 (ix3 b 𝟘 (⟨k.val, by omega⟩ : Fin 40000)) rfl (ix3 b 𝟘 k)
    (fun a => by match a with | ⟨0, _⟩ => rfl | ⟨1, _⟩ => rfl | ⟨2, _⟩ => rfl)

/-- The joined row at a coordinate of its second half is the second input's row, 20000 places back. -/
theorem cat_right (b : Fin 4096) (k : Fin 20000) :
    val_main_v0 (F := Ideal) x0 x1 (ix3 b 𝟘 (⟨20000 + k.val, by omega⟩ : Fin 40000)) = x1 (ix3 b 𝟘 k) := by
  unfold val_main_v0
  exact concatenate_pair_apply_right (t := S4096x1x40000) (s₁ := S4096x1x20000) (s₂ := S4096x1x20000) 2 x0 x1
    concatenates_S4096x1x20000_S4096x1x20000_S4096x1x40000_d2 (ix3 b 𝟘 (⟨20000 + k.val, by omega⟩ : Fin 40000)) rfl rfl
    (ix3 b 𝟘 k)
    (fun a => by
      match a with
      | ⟨0, _⟩ => exact fun _ => rfl
      | ⟨1, _⟩ => exact fun _ => rfl
      | ⟨2, _⟩ => exact fun h => absurd rfl h)
    (by show k.val + 20000 = 20000 + k.val; omega)

/-! ## First dense stage -/

/-- The first dense stage on row `b`: the two half contractions and the bias. -/
theorem layer1 (b : Fin 4096) (o : Fin 128) :
    val_main_v4 (F := Ideal) x0 x1 x2 x3 (ix3 b 𝟘 o)
      = lin2 (fun k => x0 (ix3 b 𝟘 k)) (fun k => x1 (ix3 b 𝟘 k))
          (fun o k => x2 (ix2 o (⟨k.val, by omega⟩ : Fin 40000)))
          (fun o k => x2 (ix2 o (⟨20000 + k.val, by omega⟩ : Fin 40000)))
          (fun o => x3 (ix1 o)) o := by
  have el : ∀ k : Fin 40000, lidx_main_v1 (ix3 b 𝟘 o) k = ix3 b 𝟘 k := fun k => by idx3
  have er : ∀ k : Fin 40000, ridx_main_v1 (ix3 b 𝟘 o) k = ix2 o k := fun k => by idx2
  have eb : idx_main_v2 (idx_main_v3 (ix3 b 𝟘 o)) = ix1 o := by idx1
  rw [val_main_v4_apply, val_main_v1_apply, val_main_v3_apply, val_main_v2_apply, sum_halves, eb]
  simp only [el, er, cat_left, cat_right]
  rfl

/-! ## First normalisation (width 128) -/

/-- The mean of row `b` after the first dense stage. -/
theorem mean1 (b : Fin 4096) :
    val_main_v8 (F := Ideal) x0 x1 x2 x3 (ix3 b 𝟘 𝟘)
      = Ideal.div (∑ k : Fin 128, val_main_v4 (F := Ideal) x0 x1 x2 x3 (ix3 b 𝟘 k)) (Ideal.ofBits .f32 0x43000000#32) := by
  rw [val_main_v8_apply, val_main_v6_apply, val_main_v5_apply, val_main_v7_apply, val_main_cst_0_apply,
    val_main_cst_apply]
  simp only [Ideal.hostDivf_def, Ideal.ofBits_def, Ideal.ofBits_zero_f32, zero_add]
  refine congrArg₂ Ideal.div (Finset.sum_congr rfl fun k _ => ?_) rfl
  exact congrArg _ (by idx3)

/-- An entry's deviation from the mean, as the variance reads it. -/
theorem dev1 (b : Fin 4096) (o : Fin 128) :
    val_main_v10 (F := Ideal) x0 x1 x2 x3 (ix3 b 𝟘 o)
      = val_main_v4 (F := Ideal) x0 x1 x2 x3 (ix3 b 𝟘 o) - val_main_v8 (F := Ideal) x0 x1 x2 x3 (ix3 b 𝟘 𝟘) := by
  rw [val_main_v10_apply, val_main_v9_apply,
    show idx_main_v9 (ix3 b 𝟘 o) = ix3 b 𝟘 𝟘 from by idx3]
  rfl

/-- The mean of the squared deviations of row `b`. -/
theorem var1 (b : Fin 4096) :
    val_main_v15 (F := Ideal) x0 x1 x2 x3 (ix3 b 𝟘 𝟘)
      = Ideal.div (∑ k : Fin 128,
            (val_main_v4 (F := Ideal) x0 x1 x2 x3 (ix3 b 𝟘 k) - val_main_v8 (F := Ideal) x0 x1 x2 x3 (ix3 b 𝟘 𝟘))
              * (val_main_v4 (F := Ideal) x0 x1 x2 x3 (ix3 b 𝟘 k) - val_main_v8 (F := Ideal) x0 x1 x2 x3 (ix3 b 𝟘 𝟘)))
          (Ideal.ofBits .f32 0x43000000#32) := by
  rw [val_main_v15_apply, val_main_v13_apply, val_main_v12_apply, val_main_v14_apply, val_main_cst_2_apply,
    val_main_cst_1_apply]
  simp only [Ideal.hostDivf_def, Ideal.ofBits_def, Ideal.ofBits_zero_f32, zero_add]
  refine congrArg₂ Ideal.div (Finset.sum_congr rfl fun k _ => ?_) rfl
  rw [show idx_main_v12 (idx_main_v13 (ix3 b 𝟘 𝟘)) k = ix3 b 𝟘 k from by idx3, val_main_v11_apply, dev1]
  rfl

/-- The scaled deviation: an entry minus the mean, times the inverse root of the variance plus `ε`. -/
theorem scaled1 (b : Fin 4096) (o : Fin 128) :
    val_main_v22 (F := Ideal) x0 x1 x2 x3 (ix3 b 𝟘 o)
      = (val_main_v4 (F := Ideal) x0 x1 x2 x3 (ix3 b 𝟘 o) - val_main_v8 (F := Ideal) x0 x1 x2 x3 (ix3 b 𝟘 𝟘))
          * Ideal.rsqrt (val_main_v15 (F := Ideal) x0 x1 x2 x3 (ix3 b 𝟘 𝟘) + Ideal.ofBits .f32 0x3727C5AC#32) := by
  rw [val_main_v22_apply, val_main_v17_apply, val_main_v16_apply, val_main_v21_apply, val_main_v20_apply,
    val_main_v19_apply, val_main_v18_apply, val_main_cst_3_apply,
    show idx_main_v16 (ix3 b 𝟘 o) = ix3 b 𝟘 𝟘 from by idx3,
    show idx_main_v21 (ix3 b 𝟘 o) = ix3 b 𝟘 𝟘 from by idx3]
  rfl

/-- The first normalisation and rectifier on row `b`. -/
theorem act1 (b : Fin 4096) (o : Fin 128) :
    val_main_v27 (F := Ideal) x0 x1 x2 x3 (ix3 b 𝟘 o)
      = normAct 0x43000000#32 (fun k => val_main_v4 (F := Ideal) x0 x1 x2 x3 (ix3 b 𝟘 k)) o := by
  rw [val_main_v27_apply, val_main_v24_apply, val_main_v26_apply, val_main_v25_apply, val_main_cst_5_apply,
    val_main_v23_apply, val_main_cst_4_apply, scaled1, var1, mean1]
  rfl

/-! ## Second dense stage and normalisation (width 64) -/

/-- The second dense stage on row `b`. -/
theorem layer2 (b : Fin 4096) (o : Fin 64) :
    val_main_v31 (F := Ideal) x0 x1 x2 x3 x4 x5 (ix3 b 𝟘 o)
      = lin (fun k => val_main_v27 (F := Ideal) x0 x1 x2 x3 (ix3 b 𝟘 k)) (fun o k => x4 (ix2 o k))
          (fun o => x5 (ix1 o)) o := by
  have el : ∀ k : Fin 128, lidx_main_v28 (ix3 b 𝟘 o) k = ix3 b 𝟘 k := fun k => by idx3
  have er : ∀ k : Fin 128, ridx_main_v28 (ix3 b 𝟘 o) k = ix2 o k := fun k => by idx2
  have eb : idx_main_v29 (idx_main_v30 (ix3 b 𝟘 o)) = ix1 o := by idx1
  rw [val_main_v31_apply, val_main_v28_apply, val_main_v30_apply, val_main_v29_apply, eb]
  simp only [el, er]
  rfl

/-- The mean of row `b` after the second dense stage. -/
theorem mean2 (b : Fin 4096) :
    val_main_v35 (F := Ideal) x0 x1 x2 x3 x4 x5 (ix3 b 𝟘 𝟘)
      = Ideal.div (∑ k : Fin 64, val_main_v31 (F := Ideal) x0 x1 x2 x3 x4 x5 (ix3 b 𝟘 k)) (Ideal.ofBits .f32 0x42800000#32) := by
  rw [val_main_v35_apply, val_main_v33_apply, val_main_v32_apply, val_main_v34_apply, val_main_cst_7_apply,
    val_main_cst_6_apply]
  simp only [Ideal.hostDivf_def, Ideal.ofBits_def, Ideal.ofBits_zero_f32, zero_add]
  refine congrArg₂ Ideal.div (Finset.sum_congr rfl fun k _ => ?_) rfl
  exact congrArg _ (by idx3)

/-- An entry's deviation from the mean, as the variance reads it. -/
theorem dev2 (b : Fin 4096) (o : Fin 64) :
    val_main_v37 (F := Ideal) x0 x1 x2 x3 x4 x5 (ix3 b 𝟘 o)
      = val_main_v31 (F := Ideal) x0 x1 x2 x3 x4 x5 (ix3 b 𝟘 o) - val_main_v35 (F := Ideal) x0 x1 x2 x3 x4 x5 (ix3 b 𝟘 𝟘) := by
  rw [val_main_v37_apply, val_main_v36_apply,
    show idx_main_v36 (ix3 b 𝟘 o) = ix3 b 𝟘 𝟘 from by idx3]
  rfl

/-- The mean of the squared deviations of row `b`. -/
theorem var2 (b : Fin 4096) :
    val_main_v42 (F := Ideal) x0 x1 x2 x3 x4 x5 (ix3 b 𝟘 𝟘)
      = Ideal.div (∑ k : Fin 64,
            (val_main_v31 (F := Ideal) x0 x1 x2 x3 x4 x5 (ix3 b 𝟘 k) - val_main_v35 (F := Ideal) x0 x1 x2 x3 x4 x5 (ix3 b 𝟘 𝟘))
              * (val_main_v31 (F := Ideal) x0 x1 x2 x3 x4 x5 (ix3 b 𝟘 k) - val_main_v35 (F := Ideal) x0 x1 x2 x3 x4 x5 (ix3 b 𝟘 𝟘)))
          (Ideal.ofBits .f32 0x42800000#32) := by
  rw [val_main_v42_apply, val_main_v40_apply, val_main_v39_apply, val_main_v41_apply, val_main_cst_9_apply,
    val_main_cst_8_apply]
  simp only [Ideal.hostDivf_def, Ideal.ofBits_def, Ideal.ofBits_zero_f32, zero_add]
  refine congrArg₂ Ideal.div (Finset.sum_congr rfl fun k _ => ?_) rfl
  rw [show idx_main_v39 (idx_main_v40 (ix3 b 𝟘 𝟘)) k = ix3 b 𝟘 k from by idx3, val_main_v38_apply, dev2]
  rfl

/-- The scaled deviation of an entry of row `b`. -/
theorem scaled2 (b : Fin 4096) (o : Fin 64) :
    val_main_v49 (F := Ideal) x0 x1 x2 x3 x4 x5 (ix3 b 𝟘 o)
      = (val_main_v31 (F := Ideal) x0 x1 x2 x3 x4 x5 (ix3 b 𝟘 o) - val_main_v35 (F := Ideal) x0 x1 x2 x3 x4 x5 (ix3 b 𝟘 𝟘))
          * Ideal.rsqrt (val_main_v42 (F := Ideal) x0 x1 x2 x3 x4 x5 (ix3 b 𝟘 𝟘) + Ideal.ofBits .f32 0x3727C5AC#32) := by
  rw [val_main_v49_apply, val_main_v44_apply, val_main_v43_apply, val_main_v48_apply, val_main_v47_apply,
    val_main_v46_apply, val_main_v45_apply, val_main_cst_10_apply,
    show idx_main_v43 (ix3 b 𝟘 o) = ix3 b 𝟘 𝟘 from by idx3,
    show idx_main_v48 (ix3 b 𝟘 o) = ix3 b 𝟘 𝟘 from by idx3]
  rfl

/-- The second normalisation and rectifier on row `b`. -/
theorem act2 (b : Fin 4096) (o : Fin 64) :
    val_main_v54 (F := Ideal) x0 x1 x2 x3 x4 x5 (ix3 b 𝟘 o)
      = normAct 0x42800000#32 (fun k => val_main_v31 (F := Ideal) x0 x1 x2 x3 x4 x5 (ix3 b 𝟘 k)) o := by
  rw [val_main_v54_apply, val_main_v51_apply, val_main_v53_apply, val_main_v52_apply, val_main_cst_12_apply,
    val_main_v50_apply, val_main_cst_11_apply, scaled2, var2, mean2]
  rfl

/-! ## Third dense stage and normalisation (width 32) -/

/-- The third dense stage on row `b`. -/
theorem layer3 (b : Fin 4096) (o : Fin 32) :
    val_main_v58 (F := Ideal) x0 x1 x2 x3 x4 x5 x6 x7 (ix3 b 𝟘 o)
      = lin (fun k => val_main_v54 (F := Ideal) x0 x1 x2 x3 x4 x5 (ix3 b 𝟘 k)) (fun o k => x6 (ix2 o k))
          (fun o => x7 (ix1 o)) o := by
  have el : ∀ k : Fin 64, lidx_main_v55 (ix3 b 𝟘 o) k = ix3 b 𝟘 k := fun k => by idx3
  have er : ∀ k : Fin 64, ridx_main_v55 (ix3 b 𝟘 o) k = ix2 o k := fun k => by idx2
  have eb : idx_main_v56 (idx_main_v57 (ix3 b 𝟘 o)) = ix1 o := by idx1
  rw [val_main_v58_apply, val_main_v55_apply, val_main_v57_apply, val_main_v56_apply, eb]
  simp only [el, er]
  rfl

/-- The mean of row `b` after the third dense stage. -/
theorem mean3 (b : Fin 4096) :
    val_main_v62 (F := Ideal) x0 x1 x2 x3 x4 x5 x6 x7 (ix3 b 𝟘 𝟘)
      = Ideal.div (∑ k : Fin 32, val_main_v58 (F := Ideal) x0 x1 x2 x3 x4 x5 x6 x7 (ix3 b 𝟘 k)) (Ideal.ofBits .f32 0x42000000#32) := by
  rw [val_main_v62_apply, val_main_v60_apply, val_main_v59_apply, val_main_v61_apply, val_main_cst_14_apply,
    val_main_cst_13_apply]
  simp only [Ideal.hostDivf_def, Ideal.ofBits_def, Ideal.ofBits_zero_f32, zero_add]
  refine congrArg₂ Ideal.div (Finset.sum_congr rfl fun k _ => ?_) rfl
  exact congrArg _ (by idx3)

/-- An entry's deviation from the mean, as the variance reads it. -/
theorem dev3 (b : Fin 4096) (o : Fin 32) :
    val_main_v64 (F := Ideal) x0 x1 x2 x3 x4 x5 x6 x7 (ix3 b 𝟘 o)
      = val_main_v58 (F := Ideal) x0 x1 x2 x3 x4 x5 x6 x7 (ix3 b 𝟘 o) - val_main_v62 (F := Ideal) x0 x1 x2 x3 x4 x5 x6 x7 (ix3 b 𝟘 𝟘) := by
  rw [val_main_v64_apply, val_main_v63_apply,
    show idx_main_v63 (ix3 b 𝟘 o) = ix3 b 𝟘 𝟘 from by idx3]
  rfl

/-- The mean of the squared deviations of row `b`. -/
theorem var3 (b : Fin 4096) :
    val_main_v69 (F := Ideal) x0 x1 x2 x3 x4 x5 x6 x7 (ix3 b 𝟘 𝟘)
      = Ideal.div (∑ k : Fin 32,
            (val_main_v58 (F := Ideal) x0 x1 x2 x3 x4 x5 x6 x7 (ix3 b 𝟘 k) - val_main_v62 (F := Ideal) x0 x1 x2 x3 x4 x5 x6 x7 (ix3 b 𝟘 𝟘))
              * (val_main_v58 (F := Ideal) x0 x1 x2 x3 x4 x5 x6 x7 (ix3 b 𝟘 k) - val_main_v62 (F := Ideal) x0 x1 x2 x3 x4 x5 x6 x7 (ix3 b 𝟘 𝟘)))
          (Ideal.ofBits .f32 0x42000000#32) := by
  rw [val_main_v69_apply, val_main_v67_apply, val_main_v66_apply, val_main_v68_apply, val_main_cst_16_apply,
    val_main_cst_15_apply]
  simp only [Ideal.hostDivf_def, Ideal.ofBits_def, Ideal.ofBits_zero_f32, zero_add]
  refine congrArg₂ Ideal.div (Finset.sum_congr rfl fun k _ => ?_) rfl
  rw [show idx_main_v66 (idx_main_v67 (ix3 b 𝟘 𝟘)) k = ix3 b 𝟘 k from by idx3, val_main_v65_apply, dev3]
  rfl

/-- The scaled deviation of an entry of row `b`. -/
theorem scaled3 (b : Fin 4096) (o : Fin 32) :
    val_main_v76 (F := Ideal) x0 x1 x2 x3 x4 x5 x6 x7 (ix3 b 𝟘 o)
      = (val_main_v58 (F := Ideal) x0 x1 x2 x3 x4 x5 x6 x7 (ix3 b 𝟘 o) - val_main_v62 (F := Ideal) x0 x1 x2 x3 x4 x5 x6 x7 (ix3 b 𝟘 𝟘))
          * Ideal.rsqrt (val_main_v69 (F := Ideal) x0 x1 x2 x3 x4 x5 x6 x7 (ix3 b 𝟘 𝟘) + Ideal.ofBits .f32 0x3727C5AC#32) := by
  rw [val_main_v76_apply, val_main_v71_apply, val_main_v70_apply, val_main_v75_apply, val_main_v74_apply,
    val_main_v73_apply, val_main_v72_apply, val_main_cst_17_apply,
    show idx_main_v70 (ix3 b 𝟘 o) = ix3 b 𝟘 𝟘 from by idx3,
    show idx_main_v75 (ix3 b 𝟘 o) = ix3 b 𝟘 𝟘 from by idx3]
  rfl

/-- The third normalisation and rectifier on row `b`. -/
theorem act3 (b : Fin 4096) (o : Fin 32) :
    val_main_v81 (F := Ideal) x0 x1 x2 x3 x4 x5 x6 x7 (ix3 b 𝟘 o)
      = normAct 0x42000000#32 (fun k => val_main_v58 (F := Ideal) x0 x1 x2 x3 x4 x5 x6 x7 (ix3 b 𝟘 k)) o := by
  rw [val_main_v81_apply, val_main_v78_apply, val_main_v80_apply, val_main_v79_apply, val_main_cst_19_apply,
    val_main_v77_apply, val_main_cst_18_apply, scaled3, var3, mean3]
  rfl

/-! ## Last dense stage -/

/-- The last dense stage on row `b`. -/
theorem layer4 (b : Fin 4096) (o : Fin 16) :
    val_main_v85 (F := Ideal) x0 x1 x2 x3 x4 x5 x6 x7 x8 x9 (ix3 b 𝟘 o)
      = lin (fun k => val_main_v81 (F := Ideal) x0 x1 x2 x3 x4 x5 x6 x7 (ix3 b 𝟘 k)) (fun o k => x8 (ix2 o k))
          (fun o => x9 (ix1 o)) o := by
  have el : ∀ k : Fin 32, lidx_main_v82 (ix3 b 𝟘 o) k = ix3 b 𝟘 k := fun k => by idx3
  have er : ∀ k : Fin 32, ridx_main_v82 (ix3 b 𝟘 o) k = ix2 o k := fun k => by idx2
  have eb : idx_main_v83 (idx_main_v84 (ix3 b 𝟘 o)) = ix1 o := by idx1
  rw [val_main_v85_apply, val_main_v82_apply, val_main_v84_apply, val_main_v83_apply, eb]
  simp only [el, er]
  rfl

end Stages

/-- The reference's last stage is the network of the argument arrays. -/
theorem result_eq (x0 x1 : (⟨S4096x1x20000, .f32⟩ : BufTy).Contents (Elt Ideal)) (x2 : (⟨S128x40000, .f32⟩ : BufTy).Contents (Elt Ideal))
    (x3 : (⟨S128, .f32⟩ : BufTy).Contents (Elt Ideal)) (x4 : (⟨S64x128, .f32⟩ : BufTy).Contents (Elt Ideal))
    (x5 : (⟨S64, .f32⟩ : BufTy).Contents (Elt Ideal)) (x6 : (⟨S32x64, .f32⟩ : BufTy).Contents (Elt Ideal))
    (x7 : (⟨S32, .f32⟩ : BufTy).Contents (Elt Ideal)) (x8 : (⟨S16x32, .f32⟩ : BufTy).Contents (Elt Ideal))
    (x9 : (⟨S16, .f32⟩ : BufTy).Contents (Elt Ideal)) :
    val_main_v85 (F := Ideal) x0 x1 x2 x3 x4 x5 x6 x7 x8 x9 = G x0 x1 x2 x3 x4 x5 x6 x7 x8 x9 := by
  funext i
  obtain ⟨b, n, o, rfl⟩ : ∃ (b : Fin 4096) (n : Fin 1) (o : Fin 16), i = ix3 b n o := ⟨i 0, i 1, i 2, eq_ix3 i⟩
  obtain rfl : n = 𝟘 := Subsingleton.elim _ _
  rw [layer4]
  simp only [act3, layer3, act2, layer2, act1, layer1]
  rfl

end Cert.ReferenceIdeal.RefValue

end
-- ==== Proof.Windows.lean ====
/-
  What each input window of the region holds at a grid point, read at an entry.

  Before the region the host reshapes each input from 4096 × 1 × 20000 to 4096 × 20000, slices the
  first weight matrix into its two column halves, changes the float format of the four weight
  matrices (the identity on the extended reals) and reshapes each bias to one row. At grid point
  `t` the two input windows hold rows `64 t … 64 t + 63` of the reshaped inputs; every other window
  holds its whole array at every point.
-/
import proofs.«157243_j48301202211328_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.Net

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- Where each window's block sits at grid point `t`: the two input windows and the output window move
    one block of 64 rows per point, the weight and bias windows stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

/-! ## The arrays as the region finds them, and each window's block read at an entry -/

theorem V_v0 (c : Dev nD) : (V m c main_v0 : S4096x20000.Idx → EReal)
    = shapeCast S4096x20000 (m ((c : Thread nD τ).loc main_arg0)) shapeCasts_S4096x1x20000_S4096x20000 := by
  show StableHlo.after hostOps0 (fun b => m (c, b)) (Proc.devRef .tc main_v0) = _
  after_results
  rfl

/-- Row `p` of input window 0's block at point `t` is row `64 t + p` of the input. -/
theorem blk0 (c : Dev nD) (t : Fin cfg0.N) (p : Fin 64) (k : Fin 20000) (r : Fin 4096) (hr : r.val = 64 * t.val + p.val) :
    (iblk m c 0 t : S64x20000.Idx → EReal) (ix2 p k) = (m ((c : Thread nD τ).loc main_arg0)) (ix3 r (0 : Fin 1) k) := by
  unfold iblk
  rw [View.read_apply]
  show V m c main_v0 (((cfg0.win 0).blk t).view.emb (ix2 p k)) = _
  refine (congrFun (V_v0 m c) _).trans ?_
  refine shapeCast_apply _ _ _ _ ?_
  show (S4096x1x20000.rowMajor (ix3 r (0 : Fin 1) k)).val = (S4096x20000.rowMajor (((cfg0.win 0).blk t).view.emb (ix2 p k))).val
  rw [Shape.rowMajor_val_three, Shape.rowMajor_val_two]
  have E := (idx_facts t)
  show (r.val * 1 + 0) * 20000 + k.val = (win0_0.index t (0 : Fin 2) * 64 + 1 * p.val) * 20000 + (win0_0.index t (1 : Fin 2) * 20000 + 1 * k.val)
  rw [E.1, E.2.1, hr]; ring

theorem V_v1 (c : Dev nD) : (V m c main_v1 : S4096x20000.Idx → EReal)
    = shapeCast S4096x20000 (m ((c : Thread nD τ).loc main_arg1)) shapeCasts_S4096x1x20000_S4096x20000 := by
  show StableHlo.after hostOps0 (fun b => m (c, b)) (Proc.devRef .tc main_v1) = _
  after_results
  rfl

/-- Row `p` of input window 1's block at point `t` is row `64 t + p` of the input. -/
theorem blk1 (c : Dev nD) (t : Fin cfg0.N) (p : Fin 64) (k : Fin 20000) (r : Fin 4096) (hr : r.val = 64 * t.val + p.val) :
    (iblk m c 1 t : S64x20000.Idx → EReal) (ix2 p k) = (m ((c : Thread nD τ).loc main_arg1)) (ix3 r (0 : Fin 1) k) := by
  unfold iblk
  rw [View.read_apply]
  show V m c main_v1 (((cfg0.win 1).blk t).view.emb (ix2 p k)) = _
  refine (congrFun (V_v1 m c) _).trans ?_
  refine shapeCast_apply _ _ _ _ ?_
  show (S4096x1x20000.rowMajor (ix3 r (0 : Fin 1) k)).val = (S4096x20000.rowMajor (((cfg0.win 1).blk t).view.emb (ix2 p k))).val
  rw [Shape.rowMajor_val_three, Shape.rowMajor_val_two]
  have E := (idx_facts t).2.2
  show (r.val * 1 + 0) * 20000 + k.val = (win0_1.index t (0 : Fin 2) * 64 + 1 * p.val) * 20000 + (win0_1.index t (1 : Fin 2) * 20000 + 1 * k.val)
  rw [E.1, E.2.1, hr]; ring

theorem V_v3 (c : Dev nD) : (V m c main_v3 : S128x20000.Idx → EReal)
    = (truncf (F := Ideal) .bf16 (extractStridedSlice S128x20000 ![0, 0] (m ((c : Thread nD τ).loc main_arg2)) slices_S128x40000_S128x20000_0_0) bitsLt_bf16_f32 : S128x20000.Idx → EReal) := by
  show StableHlo.after hostOps0 (fun b => m (c, b)) (Proc.devRef .tc main_v3) = _
  after_results

/-- Window 2 holds columns 0 … 19999 of the first weight matrix at every point. -/
theorem blk2 (c : Dev nD) (t : Fin cfg0.N) (o : Fin 128) (k : Fin 20000) :
    (iblk m c 2 t : S128x20000.Idx → EReal) (ix2 o k) = (m ((c : Thread nD τ).loc main_arg2)) (ix2 o (⟨k.val, by omega⟩ : Fin 40000)) := by
  unfold iblk
  rw [View.read_apply]
  show V m c main_v3 (((cfg0.win 2).blk t).view.emb (ix2 o k)) = _
  refine (congrFun (V_v3 m c) _).trans ?_
  show extractStridedSlice S128x20000 ![0, 0] (m ((c : Thread nD τ).loc main_arg2)) slices_S128x40000_S128x20000_0_0 _ = _
  refine extractStridedSlice_apply _ _ _ _ _ fun a => ?_
  have E := (idx_facts t).2.2.2.2
  match a with
  | ⟨0, _⟩ => show o.val = 0 + (win0_2.index t (0 : Fin 2) * 128 + 1 * o.val); rw [E.1]; omega
  | ⟨1, _⟩ => show k.val = 0 + (win0_2.index t (1 : Fin 2) * 20000 + 1 * k.val); rw [E.2.1]; omega

theorem V_v5 (c : Dev nD) : (V m c main_v5 : S128x20000.Idx → EReal)
    = (truncf (F := Ideal) .bf16 (extractStridedSlice S128x20000 ![0, 20000] (m ((c : Thread nD τ).loc main_arg2)) slices_S128x40000_S128x20000_0_20000) bitsLt_bf16_f32 : S128x20000.Idx → EReal) := by
  show StableHlo.after hostOps0 (fun b => m (c, b)) (Proc.devRef .tc main_v5) = _
  after_results

/-- Window 3 holds columns 20000 … 39999 of the first weight matrix at every point. -/
theorem blk3 (c : Dev nD) (t : Fin cfg0.N) (o : Fin 128) (k : Fin 20000) :
    (iblk m c 3 t : S128x20000.Idx → EReal) (ix2 o k) = (m ((c : Thread nD τ).loc main_arg2)) (ix2 o (⟨20000 + k.val, by omega⟩ : Fin 40000)) := by
  unfold iblk
  rw [View.read_apply]
  show V m c main_v5 (((cfg0.win 3).blk t).view.emb (ix2 o k)) = _
  refine (congrFun (V_v5 m c) _).trans ?_
  show extractStridedSlice S128x20000 ![0, 20000] (m ((c : Thread nD τ).loc main_arg2)) slices_S128x40000_S128x20000_0_20000 _ = _
  refine extractStridedSlice_apply _ _ _ _ _ fun a => ?_
  have E := (idx_facts t).2.2.2.2.2.2
  match a with
  | ⟨0, _⟩ => show o.val = 0 + (win0_3.index t (0 : Fin 2) * 128 + 1 * o.val); rw [E.1]; omega
  | ⟨1, _⟩ => show 20000 + k.val = 20000 + (win0_3.index t (1 : Fin 2) * 20000 + 1 * k.val); rw [E.2.1]; omega

theorem V_v9 (c : Dev nD) : (V m c main_v9 : S1x128.Idx → EReal)
    = shapeCast S1x128 (m ((c : Thread nD τ).loc main_arg3)) shapeCasts_S128_S1x128 := by
  show StableHlo.after hostOps0 (fun b => m (c, b)) (Proc.devRef .tc main_v9) = _
  after_results
  rfl

/-- Window 4 holds the bias vector of width 128, as one row, at every point. -/
theorem blk4 (c : Dev nD) (t : Fin cfg0.N) (o : Fin 128) :
    (iblk m c 4 t : S1x128.Idx → EReal) (ix2 (0 : Fin 1) o) = (m ((c : Thread nD τ).loc main_arg3)) (ix1 o) := by
  unfold iblk
  rw [View.read_apply]
  show V m c main_v9 (((cfg0.win 4).blk t).view.emb (ix2 (0 : Fin 1) o)) = _
  refine (congrFun (V_v9 m c) _).trans ?_
  refine shapeCast_apply _ _ _ _ ?_
  show (S128.rowMajor (ix1 o)).val = (S1x128.rowMajor (((cfg0.win 4).blk t).view.emb (ix2 (0 : Fin 1) o))).val
  rw [Shape.rowMajor_val_one, Shape.rowMajor_val_two]
  have E := (idx_facts t).2.2.2.2.2.2.2.2
  show o.val = (win0_4.index t (0 : Fin 2) * 1 + 1 * 0) * 128 + (win0_4.index t (1 : Fin 2) * 128 + 1 * o.val)
  rw [E.1, E.2.1]; omega

theorem V_v6 (c : Dev nD) : (V m c main_v6 : S64x128.Idx → EReal)
    = (truncf (F := Ideal) .bf16 (m ((c : Thread nD τ).loc main_arg4)) bitsLt_bf16_f32 : S64x128.Idx → EReal) := by
  show StableHlo.after hostOps0 (fun b => m (c, b)) (Proc.devRef .tc main_v6) = _
  after_results

/-- Window 5 holds the whole 64 × 128 weight matrix at every point. -/
theorem blk5 (c : Dev nD) (t : Fin cfg0.N) (o : Fin 64) (k : Fin 128) :
    (iblk m c 5 t : S64x128.Idx → EReal) (ix2 o k) = (m ((c : Thread nD τ).loc main_arg4)) (ix2 o k) := by
  unfold iblk
  rw [View.read_apply]
  show V m c main_v6 (((cfg0.win 5).blk t).view.emb (ix2 o k)) = _
  refine (congrFun (V_v6 m c) _).trans ?_
  show (m ((c : Thread nD τ).loc main_arg4)) _ = _
  refine congrArg _ (funext fun a => Fin.ext ?_)
  have E := (idx_facts t).2.2.2.2.2.2.2.2.2.2
  match a with
  | ⟨0, _⟩ => show win0_5.index t (0 : Fin 2) * 64 + 1 * o.val = o.val; rw [E.1]; omega
  | ⟨1, _⟩ => show win0_5.index t (1 : Fin 2) * 128 + 1 * k.val = k.val; rw [E.2.1]; omega

theorem V_v10 (c : Dev nD) : (V m c main_v10 : S1x64.Idx → EReal)
    = shapeCast S1x64 (m ((c : Thread nD τ).loc main_arg5)) shapeCasts_S64_S1x64 := by
  show StableHlo.after hostOps0 (fun b => m (c, b)) (Proc.devRef .tc main_v10) = _
  after_results
  rfl

/-- Window 6 holds the bias vector of width 64, as one row, at every point. -/
theorem blk6 (c : Dev nD) (t : Fin cfg0.N) (o : Fin 64) :
    (iblk m c 6 t : S1x64.Idx → EReal) (ix2 (0 : Fin 1) o) = (m ((c : Thread nD τ).loc main_arg5)) (ix1 o) := by
  unfold iblk
  rw [View.read_apply]
  show V m c main_v10 (((cfg0.win 6).blk t).view.emb (ix2 (0 : Fin 1) o)) = _
  refine (congrFun (V_v10 m c) _).trans ?_
  refine shapeCast_apply _ _ _ _ ?_
  show (S64.rowMajor (ix1 o)).val = (S1x64.rowMajor (((cfg0.win 6).blk t).view.emb (ix2 (0 : Fin 1) o))).val
  rw [Shape.rowMajor_val_one, Shape.rowMajor_val_two]
  have E := (idx_facts t).2.2.2.2.2.2.2.2.2.2.2.2
  show o.val = (win0_6.index t (0 : Fin 2) * 1 + 1 * 0) * 64 + (win0_6.index t (1 : Fin 2) * 64 + 1 * o.val)
  rw [E.1, E.2.1]; omega

theorem V_v7 (c : Dev nD) : (V m c main_v7 : S32x64.Idx → EReal)
    = (truncf (F := Ideal) .bf16 (m ((c : Thread nD τ).loc main_arg6)) bitsLt_bf16_f32 : S32x64.Idx → EReal) := by
  show StableHlo.after hostOps0 (fun b => m (c, b)) (Proc.devRef .tc main_v7) = _
  after_results

/-- Window 7 holds the whole 32 × 64 weight matrix at every point. -/
theorem blk7 (c : Dev nD) (t : Fin cfg0.N) (o : Fin 32) (k : Fin 64) :
    (iblk m c 7 t : S32x64.Idx → EReal) (ix2 o k) = (m ((c : Thread nD τ).loc main_arg6)) (ix2 o k) := by
  unfold iblk
  rw [View.read_apply]
  show V m c main_v7 (((cfg0.win 7).blk t).view.emb (ix2 o k)) = _
  refine (congrFun (V_v7 m c) _).trans ?_
  show (m ((c : Thread nD τ).loc main_arg6)) _ = _
  refine congrArg _ (funext fun a => Fin.ext ?_)
  have E := (idx_facts t).2.2.2.2.2.2.2.2.2.2.2.2.2.2
  match a with
  | ⟨0, _⟩ => show win0_7.index t (0 : Fin 2) * 32 + 1 * o.val = o.val; rw [E.1]; omega
  | ⟨1, _⟩ => show win0_7.index t (1 : Fin 2) * 64 + 1 * k.val = k.val; rw [E.2.1]; omega

theorem V_v11 (c : Dev nD) : (V m c main_v11 : S1x32.Idx → EReal)
    = shapeCast S1x32 (m ((c : Thread nD τ).loc main_arg7)) shapeCasts_S32_S1x32 := by
  show StableHlo.after hostOps0 (fun b => m (c, b)) (Proc.devRef .tc main_v11) = _
  after_results
  rfl

/-- Window 8 holds the bias vector of width 32, as one row, at every point. -/
theorem blk8 (c : Dev nD) (t : Fin cfg0.N) (o : Fin 32) :
    (iblk m c 8 t : S1x32.Idx → EReal) (ix2 (0 : Fin 1) o) = (m ((c : Thread nD τ).loc main_arg7)) (ix1 o) := by
  unfold iblk
  rw [View.read_apply]
  show V m c main_v11 (((cfg0.win 8).blk t).view.emb (ix2 (0 : Fin 1) o)) = _
  refine (congrFun (V_v11 m c) _).trans ?_
  refine shapeCast_apply _ _ _ _ ?_
  show (S32.rowMajor (ix1 o)).val = (S1x32.rowMajor (((cfg0.win 8).blk t).view.emb (ix2 (0 : Fin 1) o))).val
  rw [Shape.rowMajor_val_one, Shape.rowMajor_val_two]
  have E := (idx_facts t).2.2.2.2.2.2.2.2.2.2.2.2.2.2.2.2
  show o.val = (win0_8.index t (0 : Fin 2) * 1 + 1 * 0) * 32 + (win0_8.index t (1 : Fin 2) * 32 + 1 * o.val)
  rw [E.1, E.2.1]; omega

theorem V_v8 (c : Dev nD) : (V m c main_v8 : S16x32.Idx → EReal)
    = (truncf (F := Ideal) .bf16 (m ((c : Thread nD τ).loc main_arg8)) bitsLt_bf16_f32 : S16x32.Idx → EReal) := by
  show StableHlo.after hostOps0 (fun b => m (c, b)) (Proc.devRef .tc main_v8) = _
  after_results

/-- Window 9 holds the whole 16 × 32 weight matrix at every point. -/
theorem blk9 (c : Dev nD) (t : Fin cfg0.N) (o : Fin 16) (k : Fin 32) :
    (iblk m c 9 t : S16x32.Idx → EReal) (ix2 o k) = (m ((c : Thread nD τ).loc main_arg8)) (ix2 o k) := by
  unfold iblk
  rw [View.read_apply]
  show V m c main_v8 (((cfg0.win 9).blk t).view.emb (ix2 o k)) = _
  refine (congrFun (V_v8 m c) _).trans ?_
  show (m ((c : Thread nD τ).loc main_arg8)) _ = _
  refine congrArg _ (funext fun a => Fin.ext ?_)
  have E := (idx_facts t).2.2.2.2.2.2.2.2.2.2.2.2.2.2.2.2.2.2
  match a with
  | ⟨0, _⟩ => show win0_9.index t (0 : Fin 2) * 16 + 1 * o.val = o.val; rw [E.1]; omega
  | ⟨1, _⟩ => show win0_9.index t (1 : Fin 2) * 32 + 1 * k.val = k.val; rw [E.2.1]; omega

theorem V_v12 (c : Dev nD) : (V m c main_v12 : S1x16.Idx → EReal)
    = shapeCast S1x16 (m ((c : Thread nD τ).loc main_arg9)) shapeCasts_S16_S1x16 := by
  show StableHlo.after hostOps0 (fun b => m (c, b)) (Proc.devRef .tc main_v12) = _
  after_results
  rfl

/-- Window 10 holds the bias vector of width 16, as one row, at every point. -/
theorem blk10 (c : Dev nD) (t : Fin cfg0.N) (o : Fin 16) :
    (iblk m c 10 t : S1x16.Idx → EReal) (ix2 (0 : Fin 1) o) = (m ((c : Thread nD τ).loc main_arg9)) (ix1 o) := by
  unfold iblk
  rw [View.read_apply]
  show V m c main_v12 (((cfg0.win 10).blk t).view.emb (ix2 (0 : Fin 1) o)) = _
  refine (congrFun (V_v12 m c) _).trans ?_
  refine shapeCast_apply _ _ _ _ ?_
  show (S16.rowMajor (ix1 o)).val = (S1x16.rowMajor (((cfg0.win 10).blk t).view.emb (ix2 (0 : Fin 1) o))).val
  rw [Shape.rowMajor_val_one, Shape.rowMajor_val_two]
  have E := (idx_facts t).2.2.2.2.2.2.2.2.2.2.2.2.2.2.2.2.2.2.2.2
  show o.val = (win0_10.index t (0 : Fin 2) * 1 + 1 * 0) * 16 + (win0_10.index t (1 : Fin 2) * 16 + 1 * o.val)
  rw [E.1, E.2.1]; omega

end Cert.KernelIdeal.Net

end
-- ==== Proof.KernelBody.lean ====
/-
  The kernel body's arithmetic on one block, read at an entry: entry `(p, o)` of the 64 × 16 value the
  body stores is the network `Cert.Mlp.mlpRow` applied to row `p` of the two loaded input blocks.

  Each kind of vector operation is first read at explicit coordinates: a vector viewed as a column, a
  column or a row repeated across a block, the sum along a block's rows, and a product contracted on
  the last axis of both operands (the sum over `k` of left `(p, k)` times right `(o, k)`). The other
  operations act entry by entry. With these, each of the body's four values is read at `(p, o)`: the
  first is the normalised and rectified first layer; the second the third layer before its
  normalisation, from any block in the place of the first value; the third the row sums of the second;
  the last normalises and rectifies the second value, given its row sums, and applies the fourth layer.
-/
import proofs.«157243_j48301202211328_1_alg».proof.Proof.Gen.KernelIdeal.Skeleton
import proofs.«157243_j48301202211328_1_alg».proof.Proof.MlpSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Mlp

/-! ## One lemma per kind of operation, at explicit coordinates -/

section Layout
variable {α : Type}

/-- A vector of length `a` cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The sum along the rows of an `[a, b]` block, at row `p`: the sum over the row's `b` entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext ax
  refine Fin.ext ?_
  match ax with
  | ⟨0, _⟩ => rfl
  | ⟨1, _⟩ => rfl

/-- The row sum of an `[a, b]` block, at row `p`: the sum over the row's `b` entries. -/
theorem reduceAdd_row_apply {a b : ℕ} (src : (⟨2, ![a, b]⟩ : Shape).Idx → EReal) (h : (⟨2, ![a, b]⟩ : Shape).Reduces [1] ⟨1, ![a]⟩) (p : Fin a) :
    Ideal.reduceAdd h src (ix1 p) = ∑ k : Fin b, src (ix2 p k) := by
  refine (Ideal.reduceAdd_single h src (ix1 p)).trans ?_
  refine Finset.sum_congr rfl fun k _ => congrArg src ?_
  funext ax
  refine Fin.ext ?_
  match ax with
  | ⟨0, _⟩ => rfl
  | ⟨1, _⟩ => rfl

/-- A reciprocal square root at an index is that of the element. -/
theorem rsqrt_apply {s : Shape} {φ : FTy} (x : FVec Ideal s φ) (i : s.Idx) : rsqrt x i = Ideal.rsqrt (x i) := rfl

/-! ## A product contracted on the last axis of both operands -/

section Dot
variable {m n K : ℕ}

/-- The dimension numbers of `[m, K]` times `[n, K]` contracted on axis 1 of both, whatever proof of their conditions. -/
abbrev ntDims (wf : DotDims.WF ⟨2, ![m, K]⟩ ⟨2, ![n, K]⟩ ⟨2, ![m, n]⟩ [1] [1] [0] [0] [] []) :
    DotDims ⟨2, ![m, K]⟩ ⟨2, ![n, K]⟩ ⟨2, ![m, n]⟩ where
  lhsContracting := [1]
  rhsContracting := [1]
  lhsNonContracting := [0]
  rhsNonContracting := [0]
  lhsBatch := []
  rhsBatch := []
  wf := wf

variable (wf : DotDims.WF ⟨2, ![m, K]⟩ ⟨2, ![n, K]⟩ ⟨2, ![m, n]⟩ [1] [1] [0] [0] [] [])

/-- The left operand's row is the result's row. -/
theorem lhs_nt_0 (i : (⟨2, ![m, n]⟩ : Shape).Idx) (q : (ntDims wf).contr.Idx) :
    ((ntDims wf).lhsIdx i q 0).val = (i 0).val := by
  unfold DotDims.lhsIdx
  rw [dif_neg (show ¬(0 : Fin (⟨2, ![m, K]⟩ : Shape).rank) ∈ (ntDims wf).lhsBatch from List.not_mem_nil),
    dif_pos (show (0 : Fin (⟨2, ![m, K]⟩ : Shape).rank) ∈ (ntDims wf).lhsNonContracting from List.mem_singleton.mpr rfl)]
  rfl
/-- The left operand's column is the contraction coordinate. -/
theorem lhs_nt_1 (i : (⟨2, ![m, n]⟩ : Shape).Idx) (q : (ntDims wf).contr.Idx) :
    ((ntDims wf).lhsIdx i q 1).val = (q ⟨0, Nat.one_pos⟩).val :=
  (ntDims wf).lhsIdx_val_of_single rfl i q
/-- The right operand's row is the result's column. -/
theorem rhs_nt_0 (i : (⟨2, ![m, n]⟩ : Shape).Idx) (q : (ntDims wf).contr.Idx) :
    ((ntDims wf).rhsIdx i q 0).val = (i 1).val := by
  unfold DotDims.rhsIdx
  rw [dif_neg (show ¬(0 : Fin (⟨2, ![n, K]⟩ : Shape).rank) ∈ (ntDims wf).rhsBatch from List.not_mem_nil),
    dif_pos (show (0 : Fin (⟨2, ![n, K]⟩ : Shape).rank) ∈ (ntDims wf).rhsNonContracting from List.mem_singleton.mpr rfl)]
  rfl
/-- The right operand's column is the contraction coordinate. -/
theorem rhs_nt_1 (i : (⟨2, ![m, n]⟩ : Shape).Idx) (q : (ntDims wf).contr.Idx) :
    ((ntDims wf).rhsIdx i q 1).val = (q ⟨0, Nat.one_pos⟩).val :=
  (ntDims wf).rhsIdx_val_of_single rfl i q

/-- Such a product into the zero accumulator, at `(p, o)`: the sum over `k` of left `(p, k)` times right `(o, k)`. -/
theorem matmul_nt_apply {φ₁ φ₂ : FTy} (L : FVec Ideal ⟨2, ![m, K]⟩ φ₁) (R : FVec Ideal ⟨2, ![n, K]⟩ φ₂) (p : Fin m) (o : Fin n) :
    matmul (F := Ideal) (ntDims wf) none L R (constant (F := Ideal) ⟨2, ![m, n]⟩ .f32 0x00000000#32) (ix2 p o)
      = ∑ k : Fin K, L (ix2 p k) * R (ix2 o k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p o) ((contrEquiv1 (ntDims wf) K rfl rfl).symm k) = ix2 p k := funext fun a => Fin.ext (by
    match a with
    | ⟨0, _⟩ => exact lhs_nt_0 wf _ _
    | ⟨1, _⟩ => exact (lhs_nt_1 wf _ _).trans hk)
  have er : (ntDims wf).rhsIdx (ix2 p o) ((contrEquiv1 (ntDims wf) K rfl rfl).symm k) = ix2 o k := funext fun a => Fin.ext (by
    match a with
    | ⟨0, _⟩ => exact rhs_nt_0 wf _ _
    | ⟨1, _⟩ => exact (rhs_nt_1 wf _ _).trans hk)
  rw [el, er]

end Dot

/-! ## The body's four dimension records are of that kind -/

theorem dot1_eq : dot_S64x20000_S128x20000_S64x128_1_1_0_0_n_n = ntDims Facts₀.dot_S64x20000_S128x20000_S64x128_1_1_0_0_n_n_wf := rfl
theorem dot2_eq : dot_S64x128_S64x128_S64x64_1_1_0_0_n_n = ntDims Facts₀.dot_S64x128_S64x128_S64x64_1_1_0_0_n_n_wf := rfl
theorem dot3_eq : dot_S64x64_S32x64_S64x32_1_1_0_0_n_n = ntDims Facts₀.dot_S64x64_S32x64_S64x32_1_1_0_0_n_n_wf := rfl
theorem dot4_eq : dot_S64x32_S16x32_S64x16_1_1_0_0_n_n = ntDims Facts₀.dot_S64x32_S16x32_S64x16_1_1_0_0_n_n_wf := rfl

/-! ## The body's four values at an entry -/

/-- The first value: layer 1 on row `p` of the two input blocks, normalised and rectified. -/
theorem pay2_apply (X1 X2 : Vec Ideal S64x20000 .f32) (Wa Wb : Vec Ideal S128x20000 .bf16) (B1 : Vec Ideal S1x128 .f32)
    (p : Fin 64) (o : Fin 128) :
    k0_pay2 (F := Ideal) X1 X2 Wa Wb B1 (ix2 p o)
      = normAct 0x43000000#32 (lin2 (fun k => X1 (ix2 p k)) (fun k => X2 (ix2 p k)) (fun o k => Wa (ix2 o k)) (fun o k => Wb (ix2 o k))
          (fun o => B1 (ix2 0 o))) o := by
  unfold k0_pay2
  delta multiReduction
  simp only [select_apply, cmpf_apply, mulf_apply, subf_apply, addf_apply, divf_apply, broadcast_apply, truncf_apply, rsqrt_apply,
    shapeCast_self, broadcastTo_a1_ab_apply, shapeCast_a_a1_apply, Ideal.reduceAdd_def, reduceAdd_row_apply, broadcastTo_1b_ab_apply,
    dot1_eq, dot2_eq, dot3_eq, dot4_eq, matmul_nt_apply]
  unfold normAct lin2
  rfl

/-- The second value, from any block `V` in the first value's place: layer 2 on row `p` of `V`, normalised and
    rectified, then layer 3. -/
theorem pay3_apply (V : FVec Ideal S64x128 .f32) (W2 : Vec Ideal S64x128 .bf16) (B2 : Vec Ideal S1x64 .f32)
    (W3 : Vec Ideal S32x64 .bf16) (B3 : Vec Ideal S1x32 .f32) (p : Fin 64) (o : Fin 32) :
    k0_pay3 (F := Ideal) V W2 B2 W3 B3 (ix2 p o)
      = lin (normAct 0x42800000#32 (lin (fun k => V (ix2 p k)) (fun o k => W2 (ix2 o k)) (fun o => B2 (ix2 0 o))))
          (fun o k => W3 (ix2 o k)) (fun o => B3 (ix2 0 o)) o := by
  unfold k0_pay3
  delta multiReduction
  simp only [select_apply, cmpf_apply, mulf_apply, subf_apply, addf_apply, divf_apply, broadcast_apply, truncf_apply, rsqrt_apply,
    shapeCast_self, broadcastTo_a1_ab_apply, shapeCast_a_a1_apply, Ideal.reduceAdd_def, reduceAdd_row_apply, broadcastTo_1b_ab_apply,
    dot1_eq, dot2_eq, dot3_eq, dot4_eq, matmul_nt_apply]
  unfold normAct lin
  rfl

/-- The third value is the column of the second value's row sums. -/
theorem pay4_apply (V : FVec Ideal S64x128 .f32) (W2 : Vec Ideal S64x128 .bf16) (B2 : Vec Ideal S1x64 .f32)
    (W3 : Vec Ideal S32x64 .bf16) (B3 : Vec Ideal S1x32 .f32) (p : Fin 64) :
    k0_pay4 (F := Ideal) V W2 B2 W3 B3 (ix2 p (0 : Fin 1)) = ∑ k : Fin 32, k0_pay3 (F := Ideal) V W2 B2 W3 B3 (ix2 p k) := by
  unfold k0_pay4
  delta multiReduction
  simp only [shapeCast_a_a1_apply, Ideal.reduceAdd_def, reduceAdd_row_apply]

/-- The stored value, from any block `v78` and any column `v80` holding `v78`'s row sums: row `p` of `v78` normalised
    (its mean is the row sum over 32) and rectified, then layer 4. -/
theorem pay1_apply (v78 : FVec Ideal S64x32 .f32) (v80 : FVec Ideal S64x1 .f32) (W4 : Vec Ideal S16x32 .bf16) (B4 : Vec Ideal S1x16 .f32)
    (p : Fin 64) (o : Fin 16) (h80 : v80 (ix2 p (0 : Fin 1)) = ∑ k : Fin 32, v78 (ix2 p k)) :
    k0_pay1 (F := Ideal) v78 v80 (Scalar.ofBits .f32 0x42000000#32) W4 B4 (ix2 p o)
      = lin (normAct 0x42000000#32 (fun k => v78 (ix2 p k))) (fun o k => W4 (ix2 o k)) (fun o => B4 (ix2 0 o)) o := by
  unfold k0_pay1
  delta multiReduction
  simp only [select_apply, cmpf_apply, mulf_apply, subf_apply, addf_apply, divf_apply, broadcast_apply, truncf_apply, rsqrt_apply,
    shapeCast_self, broadcastTo_a1_ab_apply, shapeCast_a_a1_apply, Ideal.reduceAdd_def, reduceAdd_row_apply, broadcastTo_1b_ab_apply,
    dot1_eq, dot2_eq, dot3_eq, dot4_eq, matmul_nt_apply, h80]
  unfold normAct lin
  rfl

/-- The stored value at `(p, o)`, from the eleven loaded blocks. -/
theorem stored_apply (X1 X2 : Vec Ideal S64x20000 .f32) (Wa Wb : Vec Ideal S128x20000 .bf16) (B1 : Vec Ideal S1x128 .f32)
    (W2 : Vec Ideal S64x128 .bf16) (B2 : Vec Ideal S1x64 .f32) (W3 : Vec Ideal S32x64 .bf16) (B3 : Vec Ideal S1x32 .f32)
    (W4 : Vec Ideal S16x32 .bf16) (B4 : Vec Ideal S1x16 .f32) (p : Fin 64) (o : Fin 16) :
    k0_pay1 (F := Ideal) (k0_pay3 (k0_pay2 X1 X2 Wa Wb B1) W2 B2 W3 B3) (k0_pay4 (k0_pay2 X1 X2 Wa Wb B1) W2 B2 W3 B3)
        (Scalar.ofBits .f32 0x42000000#32) W4 B4 (ix2 p o)
      = mlpRow (fun k => X1 (ix2 p k)) (fun k => X2 (ix2 p k)) (fun o k => Wa (ix2 o k)) (fun o k => Wb (ix2 o k))
          (fun o => B1 (ix2 0 o)) (fun o k => W2 (ix2 o k)) (fun o => B2 (ix2 0 o)) (fun o k => W3 (ix2 o k))
          (fun o => B3 (ix2 0 o)) (fun o k => W4 (ix2 o k)) (fun o => B4 (ix2 0 o)) o := by
  rw [pay1_apply _ _ W4 B4 p o (pay4_apply _ W2 B2 W3 B3 p)]
  simp only [pay3_apply, pay2_apply]
  rfl

end Cert.KernelIdeal.Body

end
-- ==== Proof.KernelValue.lean ====
/-
  What the idealized kernel's run leaves in its result array: the network on every batch row.

  At grid point `t` the output window's block is rows `64 t … 64 t + 63` of the 4096 × 16 array the
  region writes. By the body's arithmetic entry `(p, o)` of the block written at point `t` is the
  network on row `p` of the loaded blocks, and row `p` of the two input blocks is row `64 t + p` of
  the inputs, while the weight and bias blocks are the whole weights and biases: so the point writes
  its block of ONE function of the arguments, `rows`. The 64 blocks tile the array (row `r` lies in
  the block of point `r / 64`), so the array ends at `rows`, and the reshape to 4096 × 1 × 16 after the
  region keeps the row-major position `16 r + o` of every entry: the result is `Cert.Mlp.G`.
-/
import proofs.«157243_j48301202211328_1_alg».proof.Proof.Windows
import proofs.«157243_j48301202211328_1_alg».proof.Proof.KernelBody

noncomputable section

namespace Cert.KernelIdeal.Net

open Cert.KernelIdeal Cert.KernelIdeal.Gen Idealize.ShloMosaic Idealize.ShloMosaic.TcCoe Idealize.SL.Sem
open Idealize.ShloMosaic.StableHlo Idealize.ShloMosaic.ValueIdx Cert.Mlp
open Idealize.ShloMosaic.Pipeline (Dat)

variable (m : (ℓ : Loc nD τ sig) → Buf (Elt Ideal) ℓ) (ρ : Dev nD → PrngReg)

/-- The network's value depends on its eleven arguments entry by entry. -/
theorem mlpRow_congr {x₁ x₁' x₂ x₂' : Fin 20000 → EReal} {Wa Wa' Wb Wb' : Fin 128 → Fin 20000 → EReal} {b₁ b₁' : Fin 128 → EReal}
    {W₂ W₂' : Fin 64 → Fin 128 → EReal} {b₂ b₂' : Fin 64 → EReal} {W₃ W₃' : Fin 32 → Fin 64 → EReal} {b₃ b₃' : Fin 32 → EReal}
    {W₄ W₄' : Fin 16 → Fin 32 → EReal} {b₄ b₄' : Fin 16 → EReal}
    (h1 : ∀ k, x₁ k = x₁' k) (h2 : ∀ k, x₂ k = x₂' k) (ha : ∀ o k, Wa o k = Wa' o k) (hb : ∀ o k, Wb o k = Wb' o k)
    (hb1 : ∀ o, b₁ o = b₁' o) (hw2 : ∀ o k, W₂ o k = W₂' o k) (hb2 : ∀ o, b₂ o = b₂' o) (hw3 : ∀ o k, W₃ o k = W₃' o k)
    (hb3 : ∀ o, b₃ o = b₃' o) (hw4 : ∀ o k, W₄ o k = W₄' o k) (hb4 : ∀ o, b₄ o = b₄' o) (o : Fin 16) :
    mlpRow x₁ x₂ Wa Wb b₁ W₂ b₂ W₃ b₃ W₄ b₄ o = mlpRow x₁' x₂' Wa' Wb' b₁' W₂' b₂' W₃' b₃' W₄' b₄' o := by
  obtain rfl : x₁ = x₁' := funext h1
  obtain rfl : x₂ = x₂' := funext h2
  obtain rfl : Wa = Wa' := funext fun o => funext (ha o)
  obtain rfl : Wb = Wb' := funext fun o => funext (hb o)
  obtain rfl : b₁ = b₁' := funext hb1
  obtain rfl : W₂ = W₂' := funext fun o => funext (hw2 o)
  obtain rfl : b₂ = b₂' := funext hb2
  obtain rfl : W₃ = W₃' := funext fun o => funext (hw3 o)
  obtain rfl : b₃ = b₃' := funext hb3
  obtain rfl : W₄ = W₄' := funext fun o => funext (hw4 o)
  obtain rfl : b₄ = b₄' := funext hb4
  rfl

/-- The 4096 × 16 array the region writes: entry `(r, o)` is the network on row `r` of the inputs. -/
def rows (c : Dev nD) : S4096x16.Idx → EReal := fun i =>
  mlpRow (fun k => (m ((c : Thread nD τ).loc main_arg0)) (ix3 (i 0) (0 : Fin 1) k)) (fun k => (m ((c : Thread nD τ).loc main_arg1)) (ix3 (i 0) (0 : Fin 1) k))
    (fun o k => (m ((c : Thread nD τ).loc main_arg2)) (ix2 o (⟨k.val, by omega⟩ : Fin 40000))) (fun o k => (m ((c : Thread nD τ).loc main_arg2)) (ix2 o (⟨20000 + k.val, by omega⟩ : Fin 40000)))
    (fun o => (m ((c : Thread nD τ).loc main_arg3)) (ix1 o)) (fun o k => (m ((c : Thread nD τ).loc main_arg4)) (ix2 o k)) (fun o => (m ((c : Thread nD τ).loc main_arg5)) (ix1 o)) (fun o k => (m ((c : Thread nD τ).loc main_arg6)) (ix2 o k))
    (fun o => (m ((c : Thread nD τ).loc main_arg7)) (ix1 o)) (fun o k => (m ((c : Thread nD τ).loc main_arg8)) (ix2 o k)) (fun o => (m ((c : Thread nD τ).loc main_arg9)) (ix1 o)) (i 1)

theorem hz : (![0, 0] : Fin 2 → Nat) = fun _ => 0 := funext fun a => by fin_cases a <;> rfl

/-- What grid point `t` writes back is its block of `rows`. -/
theorem flushed_eq (c : Dev nD) (t : Fin cfg0.N) :
    (dats m 0 c).flushed 11 t = ((cfg0.win 11).blk t).view.read (Elt Ideal) (rows m c) := by
  show (cfg0.win 11).cut (grid0.coords t) ((dats m 0 c).after 11 t) = _
  rw [after0_11]
  unfold out0_11
  rw [View.canon_unit_zero hz]
  simp only [View.ld_unit_zero (S := S64x20000) hz, View.ld_unit_zero (S := S128x20000) hz, View.ld_unit_zero (S := S1x128) hz,
    View.ld_unit_zero (S := S64x128) hz, View.ld_unit_zero (S := S1x64) hz, View.ld_unit_zero (S := S32x64) hz,
    View.ld_unit_zero (S := S1x32) hz, View.ld_unit_zero (S := S16x32) hz, View.ld_unit_zero (S := S1x16) hz]
  funext j
  obtain ⟨p, o, rfl⟩ : ∃ (p : Fin 64) (o : Fin 16), j = ix2 p o := ⟨j 0, j 1, eq_ix2 j⟩
  have ht : t.val < 64 := lt_of_lt_of_eq t.isLt (show cfg0.N = 64 from N_0)
  have hp : p.val < 64 := p.isLt
  have E := (idx_facts t).2.2.2.2.2.2.2.2.2.2.2.2.2.2.2.2.2.2.2.2.2.2
  have hemb : ((cfg0.win 11).blk t).view.emb (ix2 p o) = (ix2 (⟨64 * t.val + p.val, by omega⟩ : Fin 4096) o : S4096x16.Idx) := by
    funext a
    apply Fin.ext
    match a with
    | ⟨0, _⟩ => show win0_11.index t (0 : Fin 2) * 64 + 1 * p.val = 64 * t.val + p.val; rw [E.1]; omega
    | ⟨1, _⟩ => show win0_11.index t (1 : Fin 2) * 16 + 1 * o.val = o.val; rw [E.2]; omega
  rw [View.read_apply, hemb]
  refine (Body.stored_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) p o).trans ?_
  exact mlpRow_congr (fun k => blk0 m c t p k _ rfl) (fun k => blk1 m c t p k _ rfl) (fun o k => blk2 m c t o k) (fun o k => blk3 m c t o k)
    (fun o => blk4 m c t o) (fun o k => blk5 m c t o k) (fun o => blk6 m c t o) (fun o k => blk7 m c t o k) (fun o => blk8 m c t o)
    (fun o k => blk9 m c t o k) (fun o => blk10 m c t o) o

/-- Every entry of the array lies in the block of some point: row `r` in that of point `r / 64`. -/
theorem cover (i : S4096x16.Idx) :
    ∃ t : Fin cfg0.N, (cfg0.win 11).flush t = true ∧ i ∈ ((cfg0.win 11).blk t).view.set := by
  have h0 : (i 0).val < 4096 := (i 0).isLt
  have h1 : (i 1).val < 16 := (i 1).isLt
  obtain ⟨t, ht⟩ : ∃ t : Fin cfg0.N, t.val = (i 0).val / 64 :=
    ⟨⟨(i 0).val / 64, by rw [show cfg0.N = 64 from N_0]; omega⟩, rfl⟩
  refine ⟨t, flush0_11 t, ?_⟩
  show i ∈ ((View.whole main_v13).slice (win0_11.rect t)).set
  rw [View.set_slice_whole, Rect.mem_set_unit]
  have E := (idx_facts t).2.2.2.2.2.2.2.2.2.2.2.2.2.2.2.2.2.2.2.2.2.2
  intro a
  match a with
  | ⟨0, _⟩ => show win0_11.index t (0 : Fin 2) * 64 ≤ (i 0).val ∧ (i 0).val < win0_11.index t (0 : Fin 2) * 64 + 64; rw [E.1]; omega
  | ⟨1, _⟩ => show win0_11.index t (1 : Fin 2) * 16 ≤ (i 1).val ∧ (i 1).val < win0_11.index t (1 : Fin 2) * 16 + 16; rw [E.2]; omega

/-- So the array the region writes ends at `rows`. -/
theorem final (c : Dev nD) : (dats m 0 c).arrAt 11 cfg0.N = rows m c :=
  (dats m 0 c).arrAt_eq_of_cover 11 (rows m c) (fun t _ => flushed_eq m c t) cover

/-- The program's result, after the reshape that follows the region: the network of the argument arrays. -/
theorem result_eq (c : Dev nD) :
    Pipeline.afterTail₀ cfgs (dats m) 0 (V0 m) [hostOps1] c main_v14
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  unfold Pipeline.afterTail₀
  show StableHlo.after hostOps1 _ (Proc.devRef .tc main_v14) = _
  after_results
  funext i
  obtain ⟨b, n, o, rfl⟩ : ∃ (b : Fin 4096) (n : Fin 1) (o : Fin 16), i = ix3 b n o := ⟨i 0, i 1, i 2, eq_ix3 i⟩
  obtain rfl : n = 0 := Subsingleton.elim _ _
  refine (shapeCast_apply _ _ _ (ix2 b o) ?_).trans ?_
  · show (S4096x16.rowMajor (ix2 b o)).val = (S4096x1x16.rowMajor (ix3 b (0 : Fin 1) o)).val
    rw [Shape.rowMajor_val_two, Shape.rowMajor_val_three]
    show b.val * 16 + o.val = (b.val * 1 + 0) * 16 + o.val
    omega
  · rw [Pipeline.withArrays_arr spec0 launch0.win.arr_inj c _ _ 11, final]
    rfl

/-- The run of the idealized kernel: it terminates with the result at the network of the arguments and the
    arguments unchanged. -/
theorem run : θ_run defs (onTc (τ := τ) (main (F := Ideal))) ⟨m, fun _ => 0, ρ⟩ fun r => ∀ c : Dev nD,
      r.2.mem ((c.tc : Thread nD τ).loc main_v14) = G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
    ⟨((h c).2 main_v14 (Pipeline.mem_restRefs_of main_v14 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Net

end
-- ==== Proof.lean ====
/-
  A four-layer perceptron on 4096 rows of 40000 features, as one fused kernel over 64 row blocks,
  against the same network written with whole-array operations.

  Both programs compute, for every row, four dense layers `h ↦ W h + b` (widths 128, 64, 32, 16), the
  first three each followed by a normalisation of the row to mean zero and unit variance and a leaky
  rectifier (`Cert.Mlp.mlpRow`, `Cert.Mlp.G`). They differ in three ways, none of which changes the
  value on the extended reals. The kernel keeps the row in two halves and contracts each half with the
  matching column half of the first weight matrix, where the reference joins the halves and contracts
  once: a sum over 40000 indices is the sum over the first 20000 plus the sum over the last 20000
  (`Cert.Mlp.sum_halves`; addition of extended reals is commutative and associative, so no finiteness
  of the inputs is used). The kernel rounds the inputs, the weights and each layer's activations to a
  shorter float format before every product, which is the identity on the extended reals. And the
  kernel works on blocks of 64 rows and reshapes 4096 × 1 × n arrays to 4096 × n and back, which moves no
  entry. The division by the row width, the reciprocal square root, the comparison with zero and the
  two shared float constants are the same operations of the same values on both sides.

  The kernel side (`Cert.KernelIdeal.Net.run`): the body's arithmetic at an entry
  (`Cert.KernelIdeal.Body.stored_apply`), each window's block read at an entry, the 64 blocks tiling
  the result. The reference side (`Cert.ReferenceIdeal.RefValue.result_eq`): its operations read one
  at a time at an index, and its run read back layer by layer (`Cert.ReferenceIdeal.Staged.run`). The three frames
  are the programs' runs with the result dropped; the
  idealization rewrote nothing, so `preserves` is `True`.
-/
import proofs.«157243_j48301202211328_1_alg».proof.Defs
import proofs.«157243_j48301202211328_1_alg».proof.Proof.Gen.Kernel
import proofs.«157243_j48301202211328_1_alg».proof.Proof.Gen.Kernel.Skeleton
import proofs.«157243_j48301202211328_1_alg».proof.Proof.Gen.Kernel.Launch
import proofs.«157243_j48301202211328_1_alg».proof.Proof.Gen.Kernel.Points
import proofs.«157243_j48301202211328_1_alg».proof.Proof.Gen.Kernel.Frame
import proofs.«157243_j48301202211328_1_alg».proof.Proof.Gen.KernelIdeal
import proofs.«157243_j48301202211328_1_alg».proof.Proof.Gen.KernelIdeal.Skeleton
import proofs.«157243_j48301202211328_1_alg».proof.Proof.Gen.KernelIdeal.Launch
import proofs.«157243_j48301202211328_1_alg».proof.Proof.Gen.KernelIdeal.Points
import proofs.«157243_j48301202211328_1_alg».proof.Proof.Gen.KernelIdeal.Frame
import proofs.«157243_j48301202211328_1_alg».proof.Proof.Gen.ReferenceIdeal
import proofs.«157243_j48301202211328_1_alg».proof.Proof.Gen.Pre_finite_inputs
import proofs.«157243_j48301202211328_1_alg».proof.Proof.RefRun
import proofs.«157243_j48301202211328_1_alg».proof.Proof.RefRead
import proofs.«157243_j48301202211328_1_alg».proof.Proof.RefStages
import proofs.«157243_j48301202211328_1_alg».proof.Proof.RefValue
import proofs.«157243_j48301202211328_1_alg».proof.Proof.KernelValue
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame: its run with the result dropped
    exact fun m ρ _ => (θ_run Cert.ReferenceIdeal.defs _ _).mono (fun _ h c => (h c).2)
      (Cert.ReferenceIdeal.Staged.run (F := Ideal) m ρ)
  · -- both runs end at the network of the (agreeing) argument arrays
    intro m ρ m' ρ' _ hagree
    refine ⟨fun c => Cert.Mlp.G (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)),
      Cert.KernelIdeal.Net.run m ρ, ?_⟩
    refine (θ_run Cert.ReferenceIdeal.defs _ _).mono (fun _ h c => ⟨(h c).1.trans ?_, (h c).2⟩)
      (Cert.ReferenceIdeal.Staged.run (F := Ideal) m' ρ')
    obtain ⟨h0, h1, h2, h3, h4, h5, h6, h7, h8, h9⟩ := hagree c
    rw [Cert.ReferenceIdeal.RefValue.result_eq, h0, h1, h2, h3, h4, h5, h6, h7, h8, h9]⟩

end Cert.Proof

end
